-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x17 : Shape := ⟨3, ![64, 8192, 17]⟩
abbrev S51x128 : Shape := ⟨2, ![51, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S64x8192x17 : S_.BroadcastsInDim S64x8192x17 (![] : Fin 0 → Fin S64x8192x17.rank)
  reducesTo_S64x8192x17_S_d0_1_2 : S64x8192x17.ReducesTo [0, 1, 2] S_
  h_S_ : 0 < S_.numel
  bcast_S_S51x128 : S_.BroadcastsInDim S51x128 (![] : Fin 0 → Fin S51x128.rank)
  reducesTo_S51x128_S_d0_1 : S51x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S64x8192x17 .f32) (main_arg1 : FVec F S51x128 .f32) (main_arg2 : FVec F S128 .f32) (main_arg3 : FVec F S128x64 .f32) (main_arg4 : FVec F S64 .f32) (main_arg5 : FVec F S64x1 .f32) (main_arg6 : FVec F S1 .f32) : IVec S_ 1 :=
  let main_v0 : FVec F S64x8192x17 .f32 := Host.absf main_arg0
  let main_cst : FVec F S_ .f32 := constant S_ .f32 0x7F800000#32
  let main_v1 : FVec F S64x8192x17 .f32 := broadcastInDim S64x8192x17 ![] bcast_S_S64x8192x17 main_cst
  let main_v2 : IVec S64x8192x17 1 := cmpf .olt main_v0 main_v1
  let main_c : IVec S_ 1 := constantI S_ 1 1#1
  let main_v3 : IVec S_ 1 := (fun x v => Host.reduce IntOp.andi x v reducesTo_S64x8192x17_S_d0_1_2 h_S_) main_v2 main_c
  let main_v4 : FVec F S51x128 .f32 := Host.absf main_arg1
  let main_cst_0 : FVec F S_ .f32 := constant S_ .f32 0x7F800000#32
  let main_v5 : FVec F S51x128 .f32 := broadcastInDim S51x128 ![] bcast_S_S51x128 main_cst_0
  let main_v6 : IVec S51x128 1 := cmpf .olt main_v4 main_v5
  let main_c_1 : IVec S_ 1 := constantI S_ 1 1#1
  let main_v7 : IVec S_ 1 := (fun x v => Host.reduce IntOp.andi x v reducesTo_S51x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S64x8192x17 : Shape := ⟨3, ![64, 8192, 17]⟩
abbrev S51x128 : Shape := ⟨2, ![51, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S64x8200x17 : Shape := ⟨3, ![64, 8200, 17]⟩
abbrev S64x8192 : Shape := ⟨2, ![64, 8192]⟩
abbrev S16x512x17 : Shape := ⟨3, ![16, 512, 17]⟩
abbrev S16x8x17 : Shape := ⟨3, ![16, 8, 17]⟩
abbrev S16x512 : Shape := ⟨2, ![16, 512]⟩
abbrev S16x520x17 : Shape := ⟨3, ![16, 520, 17]⟩
abbrev S16x512x51 : Shape := ⟨3, ![16, 512, 51]⟩
abbrev S8192x51 : Shape := ⟨2, ![8192, 51]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩
abbrev S8192x1 : Shape := ⟨2, ![8192, 1]⟩
abbrev S1x1 : Shape := ⟨2, ![1, 1]⟩
abbrev S64x8190 : Shape := ⟨2, ![64, 8190]⟩

abbrev nBuf : Space → Nat
  | .hbm => 12
  | .vmem => 12
  | .smem => 0
  | _ => 0

abbrev bufTy : (tb : Table) → Fin (tcTables nBuf tb) → BufTy
  | .hbm, ⟨0, _⟩ => ⟨S64x8192x17, .f32⟩
  | .hbm, ⟨1, _⟩ => ⟨S51x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S_, .i32⟩
  | .hbm, ⟨8, _⟩ => ⟨S_, .f32⟩
  | .hbm, ⟨9, _⟩ => ⟨S64x8200x17, .f32⟩
  | .hbm, ⟨10, _⟩ => ⟨S64x8192, .f32⟩
  | .hbm, ⟨11, _⟩ => ⟨S64x8190, .f32⟩
  | .local _ .vmem, ⟨0, _⟩ => ⟨S16x512x17, .f32⟩
  | .local _ .vmem, ⟨1, _⟩ => ⟨S16x512x17, .f32⟩
  | .local _ .vmem, ⟨2, _⟩ => ⟨S16x8x17, .f32⟩
  | .local _ .vmem, ⟨3, _⟩ => ⟨S16x8x17, .f32⟩
  | .local _ .vmem, ⟨4, _⟩ => ⟨S51x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x1, .f32⟩
  | .local _ .vmem, ⟨9, _⟩ => ⟨S1, .f32⟩
  | .local _ .vmem, ⟨10, _⟩ => ⟨S16x512, .f32⟩
  | .local _ .vmem, ⟨11, _⟩ => ⟨S16x512, .f32⟩
  | _, _ => ⟨S64x8192x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x8x17 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S51x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  pads_S64x8192x17_S64x8200x17_000_080_000 : S64x8192x17.Pads (![0, 0, 0] : Fin 3 → Nat) ![0, 8, 0] ![0, 0, 0] S64x8200x17
  h_S_ : 0 < S_.numel
  inb_S16x512x17_S16x512x17_0_0_0 : ∀ a, (![0, 0, 0] : Fin 3 → Nat) a + S16x512x17.size a ≤ S16x512x17.size a
  h_S16x512x17 : 0 < S16x512x17.numel
  shapeCasts_S16x512x17_S16x512x17 : S16x512x17.ShapeCasts S16x512x17
  inb_S16x8x17_S16x8x17_0_0_0 : ∀ a, (![0, 0, 0] : Fin 3 → Nat) a + S16x8x17.size a ≤ S16x8x17.size a
  h_S16x8x17 : 0 < S16x8x17.numel
  shapeCasts_S16x8x17_S16x8x17 : S16x8x17.ShapeCasts S16x8x17
  concatenates_S16x512x17_S16x8x17_S16x520x17_d1 : Shape.Concatenates [S16x512x17, S16x8x17] S16x520x17 1
  slices_S16x520x17_o0_0_0_S16x512x17 : S16x520x17.Slices ![0, 0, 0] S16x512x17
  slices_S16x520x17_o0_1_0_S16x512x17 : S16x520x17.Slices ![0, 1, 0] S16x512x17
  slices_S16x520x17_o0_2_0_S16x512x17 : S16x520x17.Slices ![0, 2, 0] S16x512x17
  concatenates_S16x512x17_S16x512x17_S16x512x17_S16x512x51_d2 : Shape.Concatenates [S16x512x17, S16x512x17, S16x512x17] S16x512x51 2
  shapeCasts_S16x512x51_S8192x51 : S16x512x51.ShapeCasts S8192x51
  bitsLt_bf16_f32 : FTy.bits .bf16 < FTy.bits .f32
  inb_S51x128_S51x128_0_0 : ∀ a, (![0, 0] : Fin 2 → Nat) a + S51x128.size a ≤ S51x128.size a
  h_S51x128 : 0 < S51x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  shapeCasts_S8192x1_S16x512 : S8192x1.ShapeCasts S16x512
  inb_S16x512_S16x512_0_0 : ∀ a, (![0, 0] : Fin 2 → Nat) a + S16x512.size a ≤ S16x512.size a
  h_S16x512 : 0 < S16x512.numel
  slices_S64x8192_S64x8190_0_0 : S64x8192.Slices ![0, 0] S64x8190
  dot_S8192x51_S51x128_S8192x128_1_0_0_1_n_n_wf : DotDims.WF S8192x51 S51x128 S8192x128 [1] [0] [0] [1] [] []
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x512x17.size a < S64x8200x17.size a
  hwx0_0 : ∀ i : grid0.Coords, EltTy.bits .f32 = 32 ∨ (Rect.unit (s := S64x8200x17) (fun a => cc0_transform_0 i a * S16x512x17.size a) (fun a => (Pipeline.Clip.of (cc0_transform_0 i a) (S16x512x17.size a) (S64x8200x17.size a)).extent (S16x512x17.size a)) fun a => Pipeline.Clip.inb (Pipeline.Clip.ok_of (hstart0_0 i a))).WholeWords (EltTy.packing .f32)
  hwxs0_0 : ∀ i : grid0.Coords, EltTy.bits .f32 = 32 ∨ (Rect.unit (s := S16x512x17) (fun _ => 0) (fun a => (Pipeline.Clip.of (cc0_transform_0 i a) (S16x512x17.size a) (S64x8200x17.size a)).extent (S16x512x17.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x17.size a ≤ S64x8200x17.size a
  hwx0_1 : ∀ i : grid0.Coords, EltTy.bits .f32 = 32 ∨ (Rect.block (s := S64x8200x17) S16x8x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S51x128.size a ≤ S51x128.size a
  hwx0_2 : ∀ i : grid0.Coords, EltTy.bits .f32 = 32 ∨ (Rect.block (s := S51x128) S51x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S64x8192.size a
  hwx0_8 : ∀ i : grid0.Coords, EltTy.bits .f32 = 32 ∨ (Rect.block (s := S64x8192) S16x512.size (cc0_transform_8 i) (hinb0_8 i)).WholeWords (EltTy.packing .f32)

variable [Facts₀]

def dot_S8192x51_S51x128_S8192x128_1_0_0_1_n_n : DotDims S8192x51 S51x128 S8192x128 where
  lhsContracting := [1]
  rhsContracting := [0]
  lhsNonContracting := [0]
  rhsNonContracting := [1]
  lhsBatch := []
  rhsBatch := []
  wf := dot_S8192x51_S51x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpecClip (Memref.whole main_v0) S16x512x17.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S16x8x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S51x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S16x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x8192x17 : Shape := ⟨3, ![64, 8192, 17]⟩
abbrev S51x128 : Shape := ⟨2, ![51, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x8190x17 : Shape := ⟨3, ![64, 8190, 17]⟩
abbrev S64x8190x51 : Shape := ⟨3, ![64, 8190, 51]⟩
abbrev S64x8190x128 : Shape := ⟨3, ![64, 8190, 128]⟩
abbrev S1x1x128 : Shape := ⟨3, ![1, 1, 128]⟩
abbrev S_ : Shape := ⟨0, ![]⟩
abbrev S64x8190x64 : Shape := ⟨3, ![64, 8190, 64]⟩
abbrev S1x1x64 : Shape := ⟨3, ![1, 1, 64]⟩
abbrev S64x8190x1 : Shape := ⟨3, ![64, 8190, 1]⟩
abbrev S1x1x1 : Shape := ⟨3, ![1, 1, 1]⟩
abbrev S64x8190 : Shape := ⟨2, ![64, 8190]⟩

abbrev nBuf : Space → Nat
  | .hbm => 38
  | .vmem => 0
  | .smem => 0
  | _ => 0

abbrev bufTy : (tb : Table) → Fin (tcTables nBuf tb) → BufTy
  | .hbm, ⟨0, _⟩ => ⟨S64x8192x17, .f32⟩
  | .hbm, ⟨1, _⟩ => ⟨S51x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x8190x17, .f32⟩
  | .hbm, ⟨8, _⟩ => ⟨S64x8190x17, .f32⟩
  | .hbm, ⟨9, _⟩ => ⟨S64x8190x17, .f32⟩
  | .hbm, ⟨10, _⟩ => ⟨S64x8190x51, .f32⟩
  | .hbm, ⟨11, _⟩ => ⟨S64x8190x128, .f32⟩
  | .hbm, ⟨12, _⟩ => ⟨S1x1x128, .f32⟩
  | .hbm, ⟨13, _⟩ => ⟨S64x8190x128, .f32⟩
  | .hbm, ⟨14, _⟩ => ⟨S64x8190x128, .f32⟩
  | .hbm, ⟨15, _⟩ => ⟨S_, .f32⟩
  | .hbm, ⟨16, _⟩ => ⟨S64x8190x128, .f32⟩
  | .hbm, ⟨17, _⟩ => ⟨S64x8190x128, .f32⟩
  | .hbm, ⟨18, _⟩ => ⟨S64x8190x64, .f32⟩
  | .hbm, ⟨19, _⟩ => ⟨S1x1x64, .f32⟩
  | .hbm, ⟨20, _⟩ => ⟨S64x8190x64, .f32⟩
  | .hbm, ⟨21, _⟩ => ⟨S64x8190x64, .f32⟩
  | .hbm, ⟨22, _⟩ => ⟨S_, .f32⟩
  | .hbm, ⟨23, _⟩ => ⟨S64x8190x64, .f32⟩
  | .hbm, ⟨24, _⟩ => ⟨S64x8190x64, .f32⟩
  | .hbm, ⟨25, _⟩ => ⟨S64x8190x1, .f32⟩
  | .hbm, ⟨26, _⟩ => ⟨S1x1x1, .f32⟩
  | .hbm, ⟨27, _⟩ => ⟨S64x8190x1, .f32⟩
  | .hbm, ⟨28, _⟩ => ⟨S64x8190x1, .f32⟩
  | .hbm, ⟨29, _⟩ => ⟨S64x8190x1, .f32⟩
  | .hbm, ⟨30, _⟩ => ⟨S64x8190x1, .f32⟩
  | .hbm, ⟨31, _⟩ => ⟨S_, .f32⟩
  | .hbm, ⟨32, _⟩ => ⟨S64x8190x1, .f32⟩
  | .hbm, ⟨33, _⟩ => ⟨S64x8190x1, .f32⟩
  | .hbm, ⟨34, _⟩ => ⟨S_, .f32⟩
  | .hbm, ⟨35, _⟩ => ⟨S64x8190x1, .f32⟩
  | .hbm, ⟨36, _⟩ => ⟨S64x8190x1, .f32⟩
  | .hbm, ⟨37, _⟩ => ⟨S64x8190, .f32⟩
  | _, _ => ⟨S64x8192x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  slices_S64x8192x17_S64x8190x17_0_0_0 : S64x8192x17.Slices ![0, 0, 0] S64x8190x17
  slices_S64x8192x17_S64x8190x17_0_1_0 : S64x8192x17.Slices ![0, 1, 0] S64x8190x17
  slices_S64x8192x17_S64x8190x17_0_2_0 : S64x8192x17.Slices ![0, 2, 0] S64x8190x17
  concatenates_S64x8190x17_S64x8190x17_S64x8190x17_S64x8190x51_d2 : Shape.Concatenates [S64x8190x17, S64x8190x17, S64x8190x17] S64x8190x51 2
  bcast_S128_S1x1x128_2 : S128.BroadcastsInDim S1x1x128 (![2] : Fin 1 → Fin S1x1x128.rank)
  bcast_S1x1x128_S64x8190x128_0_1_2 : S1x1x128.BroadcastsInDim S64x8190x128 (![0, 1, 2] : Fin 3 → Fin S64x8190x128.rank)
  bcast_S_S64x8190x128 : S_.BroadcastsInDim S64x8190x128 (![] : Fin 0 → Fin S64x8190x128.rank)
  bcast_S64_S1x1x64_2 : S64.BroadcastsInDim S1x1x64 (![2] : Fin 1 → Fin S1x1x64.rank)
  bcast_S1x1x64_S64x8190x64_0_1_2 : S1x1x64.BroadcastsInDim S64x8190x64 (![0, 1, 2] : Fin 3 → Fin S64x8190x64.rank)
  bcast_S_S64x8190x64 : S_.BroadcastsInDim S64x8190x64 (![] : Fin 0 → Fin S64x8190x64.rank)
  bcast_S1_S1x1x1_2 : S1.BroadcastsInDim S1x1x1 (![2] : Fin 1 → Fin S1x1x1.rank)
  bcast_S1x1x1_S64x8190x1_0_1_2 : S1x1x1.BroadcastsInDim S64x8190x1 (![0, 1, 2] : Fin 3 → Fin S64x8190x1.rank)
  bcast_S_S64x8190x1 : S_.BroadcastsInDim S64x8190x1 (![] : Fin 0 → Fin S64x8190x1.rank)
  shapeCasts_S64x8190x1_S64x8190 : S64x8190x1.ShapeCasts S64x8190
  dot_S64x8190x51_S51x128_S64x8190x128_2_0_01_1_n_n_wf : DotDims.WF S64x8190x51 S51x128 S64x8190x128 [2] [0] [0, 1] [1] [] []
  dot_S64x8190x128_S128x64_S64x8190x64_2_0_01_1_n_n_wf : DotDims.WF S64x8190x128 S128x64 S64x8190x64 [2] [0] [0, 1] [1] [] []
  dot_S64x8190x64_S64x1_S64x8190x1_2_0_01_1_n_n_wf : DotDims.WF S64x8190x64 S64x1 S64x8190x1 [2] [0] [0, 1] [1] [] []

variable [Facts₀]

def dot_S64x8190x51_S51x128_S64x8190x128_2_0_01_1_n_n : DotDims S64x8190x51 S51x128 S64x8190x128 where
  lhsContracting := [2]
  rhsContracting := [0]
  lhsNonContracting := [0, 1]
  rhsNonContracting := [1]
  lhsBatch := []
  rhsBatch := []
  wf := dot_S64x8190x51_S51x128_S64x8190x128_2_0_01_1_n_n_wf
def dot_S64x8190x128_S128x64_S64x8190x64_2_0_01_1_n_n : DotDims S64x8190x128 S128x64 S64x8190x64 where
  lhsContracting := [2]
  rhsContracting := [0]
  lhsNonContracting := [0, 1]
  rhsNonContracting := [1]
  lhsBatch := []
  rhsBatch := []
  wf := dot_S64x8190x128_S128x64_S64x8190x64_2_0_01_1_n_n_wf
def dot_S64x8190x64_S64x1_S64x8190x1_2_0_01_1_n_n : DotDims S64x8190x64 S64x1 S64x8190x1 where
  lhsContracting := [2]
  rhsContracting := [0]
  lhsNonContracting := [0, 1]
  rhsNonContracting := [1]
  lhsBatch := []
  rhsBatch := []
  wf := dot_S64x8190x64_S64x1_S64x8190x1_2_0_01_1_n_n_wf

class Facts : Prop extends Facts₀ where

variable [Facts]
-- ==== Proof.KData.lean ====
/-
  The staged program's frame, first part: what the kernel region finds and what its body leaves.

  The program pads the sequence axis with 8 zero rows, runs one kernel over a 4 × 16 grid of tiles, and keeps the first
  8190 positions of each batch row. Two of the kernel's nine operands are blocks of the SAME padded array: a tile of 512
  rows, and the 8 rows that follow it. Neither is written, so the array is shared between the two: each holds half of
  the right to it. At every grid point the body reads eight staged operands and stores one 16 × 512 tile.
-/
import proofs.«171845_j27668179321223_1_alg».proof.Proof.Gen.Kernel.Launch
import proofs.«171845_j27668179321223_1_alg».proof.Proof.Gen.Kernel.Skeleton
import proofs.«171845_j27668179321223_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The buffers' contents when the region is entered: the launch contents after the three operations before it (the
    zero constant, its conversion, the padding). -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the operations before the region, the region, the slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- No operation before the region writes an argument array: the region finds each as launched. -/
theorem V_arg (c : Dev nD) (b : Ref sig .tc) (h0 : b ≠ main_c) (h1 : b ≠ main_call0_v0) (h2 : b ≠ main_v0) :
    V m c b = m ((c : Thread nD τ).loc b) :=
  StableHlo.after_of_forall_not_mem (b := Proc.devRef .tc b) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.TRef.unary, StableHlo.TRef.binary, Finset.mem_singleton]
    exact ⟨StableHlo.devRef_ne_of_ne h0, StableHlo.devRef_ne_of_ne h1, StableHlo.devRef_ne_of_ne h2⟩))

/-! ## The operands' blocks -/

/-- Operand w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 512-row tile as its staging buffer holds it. Its blocks do not divide the padded axis (8200 rows), so the
    buffer is described through the part of it a transfer moves; on this grid that part is always the whole tile. -/
def blk0 (c : Dev nD) (t : Fin cfg0.N) : S16x512x17.Idx → Elt F .f32 :=
  win0_0.fill (grid0.coords t) (fun _ => Scalar.ofBits .f32 0#32) (iblk m c 0 t)

/-- No tile of the grid overhangs the padded array: row 512 · 15 + 511 is below 8200. -/
theorem noclip0 : ∀ t : Fin cfg0.N, ∀ a, (cfg0.win 0).clip (cfg0.grid.coords t) a = none :=
  (by decide +kernel : ∀ t : Fin grid0.N, ∀ a, win0_0.clip (grid0.coords t) a = none)

/-! ## What the body stores -/

abbrev r0 : Rect S16x512x17 := Rect.unit (s := S16x512x17) ![0, 0, 0] S16x512x17.size inb_S16x512x17_S16x512x17_0_0_0
abbrev r1 : Rect S16x8x17 := Rect.unit (s := S16x8x17) ![0, 0, 0] S16x8x17.size inb_S16x8x17_S16x8x17_0_0_0
abbrev r2 : Rect S51x128 := Rect.unit (s := S51x128) ![0, 0] S51x128.size inb_S51x128_S51x128_0_0
abbrev r3 : Rect S128 := Rect.unit (s := S128) ![0] S128.size inb_S128_S128_0
abbrev r4 : Rect S128x64 := Rect.unit (s := S128x64) ![0, 0] S128x64.size inb_S128x64_S128x64_0_0
abbrev r5 : Rect S64 := Rect.unit (s := S64) ![0] S64.size inb_S64_S64_0
abbrev r6 : Rect S64x1 := Rect.unit (s := S64x1) ![0, 0] S64x1.size inb_S64x1_S64x1_0_0
abbrev r7 : Rect S1 := Rect.unit (s := S1) ![0] S1.size inb_S1_S1_0
abbrev r8 : Rect S16x512 := Rect.unit (s := S16x512) ![0, 0] S16x512.size inb_S16x512_S16x512_0_0

/-- The output tile after the body, from the eight operands' staged blocks: its one store, of the scores. -/
def out8 (x0 : Vec F S16x512x17 .f32) (x1 : Vec F S16x8x17 .f32) (x2 : Vec F S51x128 .f32) (x3 : Vec F S128 .f32)
    (x4 : Vec F S128x64 .f32) (x5 : Vec F S64 .f32) (x6 : Vec F S64x1 .f32) (x7 : Vec F S1 .f32) : Vec F S16x512 .f32 :=
  View.canon [⟨r8, k0_pay1 (k0_pay2 (View.ld x0 r0) (View.ld x1 r1) (View.ld x2 r2) (View.ld x3 r3) (View.ld x4 r4)
    (View.ld x5 r5) (View.ld x6 r6) (View.ld x7 r7))⟩]

/-- The store covers the tile. -/
theorem cover8 (p0 : Vec F S16x512 .f32) (y : S16x512.Idx) :
    ∃ pc ∈ ([⟨r8, p0⟩] : List (View.Piece (Elt F) S16x512 .f32)), y ∈ pc.1.set :=
  View.cover_of_tiled [⟨r8, p0⟩] S16x512.size (by rfl) y

/-! ## The proof data -/

/-- Per core: the arrays as the region finds them; after the body each operand's buffer at its block and the output's
    at the stored scores; nothing else is kept between points; the two blocks of the padded array at half its right
    each. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (blk0 m c t) (iblk m c 1 t) (iblk m c 2 t) (iblk m c 3 t) (iblk m c 4 t) (iblk m c 5 t) (iblk m c 6 t) (iblk m c 7 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = out8 (blk0 m c t) (iblk m c 1 t) (iblk m c 2 t) (iblk m c 3 t) (iblk m c 4 t) (iblk m c 5 t) (iblk m c 6 t) (iblk m c 7 t) := by
  dsimp only [dats]

/-! ## What the body finds -/

/-- The tile's buffer was just fetched; the fetch fills all of it, so what was there before does not show. -/
theorem before0 (c : Dev nD) (t : Fin cfg0.N) (d) : (dats m 0 c).before 0 t d = blk0 m c t := by
  rw [(dats m 0 c).before_fetched 0 t (fetch0_0 t) d,
    (dats m 0 c).fetched_of_clip_none 0 t (noclip0 t) d (fun _ => Scalar.ofBits .f32 0#32)]
  unfold Dat.fetched Dat.blockOf blk0 iblk
  rw [A_eq]; try rfl

/-- The 8 rows after the tile: fetched at every point. -/
theorem before1 (c : Dev nD) (t : Fin cfg0.N) (d) : (dats m 0 c).before 1 t d = iblk m c 1 t := by
  rw [(dats m 0 c).before_fetched 1 t (fetch0_1 t) d]
  unfold Dat.fetched Dat.blockOf iblk
  rw [A_eq]; try rfl

/-- A weight or bias array is one block, fetched once; the body leaves it in place, so every later point finds it. -/
theorem before_w (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hafter : ∀ t, (cfg0.win w).cut (cfg0.grid.coords t) ((dats m 0 c).after w t) = (dats m 0 c).blockOf w t)
    (t : Fin cfg0.N) (d) : (dats m 0 c).before w t d = (dats m 0 c).fetched w t d :=
  (dats m 0 c).before_in_eq_fetched w hw hlive hclip hafter t d

theorem before2 (c : Dev nD) (t : Fin cfg0.N) (d) : (dats m 0 c).before 2 t d = iblk m c 2 t :=
  (before_w m c 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  (before_w m c 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  (before_w m c 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  (before_w m c 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  (before_w m c 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  (before_w m c 7 rfl (fun _ => rfl) (fun _ _ _ => rfl) (fun t => by rw [after7]; unfold Dat.blockOf iblk; rw [A_eq]; try rfl) t d).trans
    (by unfold Dat.fetched Dat.blockOf iblk; rw [A_eq]; try rfl)

end Cert.Kernel.Hand

end
-- ==== Proof.KBody.lean ====
/-
  The staged program's frame, second part: the body at a grid point.

  At every point the eight operands' staging buffers hold their blocks and the output's holds anything; the body loads
  the eight, computes the scores of the tile's 16 × 512 positions and stores them, leaving the operands' buffers as
  they were.
-/
import proofs.«171845_j27668179321223_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging buffers, the eight operands' at read contents x0 … x7 and the output's at anything: it
    runs, leaves the operands' buffers as they were and the output's at the stored scores. -/
theorem sound_kernel (c : Dev nD) (E : Set ℕ) (i : grid0.Coords) (arg2 : Memref sig .tc .vmem S16x512x17 .f32) (harg2 : arg2.IsWhole) (arg3 : Memref sig .tc .vmem S16x8x17 .f32) (harg3 : arg3.IsWhole) (arg4 : Memref sig .tc .vmem S51x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S64x1 .f32) (harg8 : arg8.IsWhole) (arg9 : Memref sig .tc .vmem S1 .f32) (harg9 : arg9.IsWhole) (arg10 : Memref sig .tc .vmem S16x512 .f32) (harg10 : arg10.IsWhole)
    (x0 : Vec F S16x512x17 .f32) (x1 : Vec F S16x8x17 .f32) (x2 : Vec F S51x128 .f32) (x3 : Vec F S128 .f32) (x4 : Vec F S128x64 .f32) (x5 : Vec F S64 .f32) (x6 : Vec F S64x1 .f32) (x7 : Vec F S1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out8 x0 x1 x2 x3 x4 x5 x6 x7)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

/-- The body at any grid point, on what the pipeline hands it there. The 512-row tile's buffer is handed back described
    on the part a transfer moves, which is all of it. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0 m c t d0, before1 m c t d1, before2 m c t d2, before3 m c t d3, before4 m c t d4, before5 m c t d5, before6 m c t d6, before7 m c t d7]
  iapply (sound_kernel (F := F) c Set.univ (grid0.coords t) _ _ _ _ _ _ _ _ _ _ _ _ _ _ _ _ _ _
    (blk0 m c t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists (blk0 m c t)
    rw [after0, Window.fill_cut]; iexact H0
  isplitl [H1]; · rw [after1]; iexact H1
  isplitl [H2]; · rw [after2]; iexact H2
  isplitl [H3]; · rw [after3]; iexact H3
  isplitl [H4]; · rw [after4]; iexact H4
  isplitl [H5]; · rw [after5]; iexact H5
  isplitl [H6]; · rw [after6]; iexact H6
  isplitl [H7]; · rw [after7]; iexact H7
  rw [after8]; iexact H8

end Cert.Kernel.Hand

end
-- ==== Proof.KLaunch.lean ====
/-
  The staged program's frame, third part: the launch.

  The region is entered with every array whole; the padded array is split in two halves of its right, one for each of
  the two operands that read it, and joined again when the region ends. After the region one slice keeps the first
  8190 positions of every batch row. The run ends with every argument array as launched and the result at that slice
  of what the kernel wrote.
-/
import proofs.«171845_j27668179321223_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the region ends, given what the write-backs left in the output array: as the region found
    them, but the output array at that. -/
def WxOf (c : Dev nD) (X : Buf (Elt F) ((c.tc : Thread nD τ).loc (Pipeline.arrRef spec0 8))) : Valuation τ sig (Elt F) :=
  Function.update (V0 m c) (Proc.devRef .tc main_v1) X

/-- And after the slice that follows the region. -/
def WendOf (c : Dev nD) (X : Buf (Elt F) ((c.tc : Thread nD τ).loc (Pipeline.arrRef spec0 8))) (b : Ref sig .tc) :
    Buf (Elt F) ((c : Thread nD τ).loc b) :=
  StableHlo.after hostOps1 (WxOf m c X) (Proc.devRef .tc b)

/-- The contents at the end of the run. -/
abbrev Wend (c : Dev nD) (b : Ref sig .tc) : Buf (Elt F) ((c : Thread nD τ).loc b) :=
  WendOf m c ((dats m 0 c).arrAt 8 cfg0.N) b

/-- The launch element of the pipeline's resource algebra. -/
def u₀ : UR sig nD τ := initOf (Pipeline.cells cfgs cellOf_inj) (Pipeline.launchToks cfgs cellOf_inj)

open Idealize.SL.BI (bigSepL bigSep_eq_bigSepL_of_eq)

/-- The distinct arrays behind the nine operands, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_arg4) ↦{fullShare} W main_arg4) ∗ (((c : Thread nD τ).loc main_arg5) ↦{fullShare} W main_arg5)
          ∗ (((c : Thread nD τ).loc main_arg6) ↦{fullShare} W main_arg6) ∗ (((c : Thread nD τ).loc main_v1) ↦{fullShare} W main_v1)) := by
  unfold Pipeline.arrBufs
  exact bigSep_eq_bigSepL_of_eq [main_v0, main_arg1, main_arg2, main_arg3, main_arg4, main_arg5, main_arg6, main_v1] (by decide) (by decide) _

/-- One operand's array in the form the pipeline holds it: whole, at the operand's share. -/
theorem arr_pt (c : Dev nD) (w : Fin cfg0.W) (q : PosShare TreeShare) (hq : (dats m 0 c).share w = q)
    (G : (w : Fin cfg0.W) → Buf (Elt F) ((cfg0.win w).arr.view.loc (c.tc : Thread nD τ))) :
    (((cfg0.win w).arr.view.loc (c.tc : Thread nD τ) ↦[(cfg0.win w).arr.view.set]{(dats m 0 c).share w} G w) : sProp 𝕄)
      = (((c.tc : Thread nD τ).loc (Pipeline.arrRef spec0 w)) ↦{q} G w) := by
  rw [(arr_whole0 w).set_eq_univ, hq]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share8 (c : Dev nD) : (dats m 0 c).share 8 = fullShare := rfl

theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [arr_pt m c 0 _ (share0 m c) ((dats m 0 c).arrAt · 0), arr_pt m c 1 _ (share1 m c) ((dats m 0 c).arrAt · 0),
    arr_pt m c 2 _ rfl ((dats m 0 c).arrAt · 0), arr_pt m c 3 _ rfl ((dats m 0 c).arrAt · 0), arr_pt m c 4 _ rfl ((dats m 0 c).arrAt · 0),
    arr_pt m c 5 _ rfl ((dats m 0 c).arrAt · 0), arr_pt m c 6 _ rfl ((dats m 0 c).arrAt · 0), arr_pt m c 7 _ rfl ((dats m 0 c).arrAt · 0),
    arr_pt m c 8 _ rfl ((dats m 0 c).arrAt · 0)]
  iintro ⟨Hv0, H1, H2, H3, H4, H5, H6, Hv1⟩
  icases (pointsTo_share (PosShare.mem_left_op_right fullShare)).1 $$ Hv0 with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  iexact Hv1

/-- A set of two buffers held is the two points-tos. -/
theorem held_pair (c : Dev nD) (a b : DevRef τ sig) (hab : a ≠ b) (W : Valuation τ sig (Elt F)) :
    (StableHlo.held (c.tc : Thread nD τ) {a, b} W : sProp 𝕄)
      = iprop((((c.tc : Thread nD τ).1, a) ↦{fullShare} W a) ∗ (((c.tc : Thread nD τ).1, b) ↦{fullShare} W b)) := by
  unfold StableHlo.held
  rw [bigSep_insert (by rw [Finset.mem_singleton]; exact hab), BI.bigSep_singleton]
  rfl

theorem v1_ne_v2 : (Proc.devRef (τ := τ) .tc main_v1 : DevRef τ sig) ≠ Proc.devRef .tc main_v2 :=
  StableHlo.devRef_ne_of_ne (by decide)

/-- The slice writes the result buffer only. -/
theorem hostOps1_keeps (b : Ref sig .tc) (hb : b ≠ main_v2) (W : Valuation τ sig (Elt F)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- A buffer that is neither the kernel's output array nor the result ends as the region found it. -/
theorem WendOf_keeps (c : Dev nD) (X) (b : Ref sig .tc) (h1 : b ≠ main_v1) (h2 : b ≠ main_v2) : WendOf m c X b = V m c b := by
  unfold WendOf
  rw [hostOps1_keeps b h2]
  unfold WxOf
  exact Function.update_of_ne (StableHlo.devRef_ne_of_ne h1) _ _

/-- The output array is not touched by the slice. -/
theorem WxOf_v1 (c : Dev nD) (X) : StableHlo.after hostOps1 (WxOf m c X) (Proc.devRef .tc main_v1) = X := by
  rw [hostOps1_keeps main_v1 (by decide)]
  unfold WxOf
  exact Function.update_self _ _ _

theorem hostOps1_bufs : ∀ ops ∈ ([hostOps1] : List (List (HloOp τ sig (Elt F)))), ∀ op ∈ ops,
    op.bufs ⊆ ({Proc.devRef .tc main_v1, Proc.devRef .tc main_v2} : Finset (DevRef τ sig)) := by
  intro ops hops op hop
  simp only [List.mem_cons, List.mem_nil_iff, or_false] at hops
  subst hops
  simp only [hostOps1, List.mem_cons, List.mem_nil_iff, or_false] at hop
  subst hop
  exact subset_refl _

theorem hostOps1_nofresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The two buffers the slice touches, held at the region's exit contents. -/
theorem held_exit (c : Dev nD) (X : Buf (Elt F) ((c.tc : Thread nD τ).loc (Pipeline.arrRef spec0 8))) :
    iprop((((c.tc : Thread nD τ).loc (Pipeline.arrRef spec0 8)) ↦{fullShare} X) ∗ (((c.tc : Thread nD τ).loc main_v2) ↦{fullShare} V m c main_v2))
      ⊢ (StableHlo.held (c.tc : Thread nD τ) {Proc.devRef .tc main_v1, Proc.devRef .tc main_v2} (WxOf m c X) : sProp 𝕄) := by
  rw [held_pair c _ _ v1_ne_v2]
  refine Entails.of_eq ?_
  congr 1

/-- And after the slice. -/
theorem held_end (c : Dev nD) (X : Buf (Elt F) ((c.tc : Thread nD τ).loc (Pipeline.arrRef spec0 8))) :
    (StableHlo.held (c.tc : Thread nD τ) {Proc.devRef .tc main_v1, Proc.devRef .tc main_v2}
        (StableHlo.after ([hostOps1] : List (List (HloOp τ sig (Elt F)))).flatten (WxOf m c X)) : sProp 𝕄)
      ⊢ iprop((((c.tc : Thread nD τ).loc (Pipeline.arrRef spec0 8)) ↦{fullShare} X) ∗ (((c.tc : Thread nD τ).loc main_v2) ↦{fullShare} WendOf m c X main_v2)) := by
  rw [held_pair c _ _ v1_ne_v2,
    show ([hostOps1] : List (List (HloOp τ sig (Elt F)))).flatten = hostOps1 from by simp only [List.flatten_cons, List.flatten_nil, List.append_nil],
    WxOf_v1 m c X]
  exact Entails.of_eq rfl

set_option backward.isDefEq.respectTransparency.types false in
set_option maxHeartbeats 800000 in
/-- After the region, whatever the write-backs left in the arrays: the slice reads the kernel's output array and writes
    the result; every other buffer stays. -/
theorem htailOf (c : Dev nD) (G : (w : Fin cfg0.W) → Buf (Elt F) ((cfg0.win w).arr.view.loc (c.tc : Thread nD τ))) (Q' : PUnit → sProp 𝕄) :
    iprop((iprop((dats m 0 c).arrays G
              ∗ Pipeline.unscopedRestP (Ix := Unit) (Name := ℕ) (U := UR sig nD τ) (Lvl := ℕ) Pipeline.Prefetch.none spec0 c (WendOf m c (G 8))) -∗ Q' ⟨⟩)
        ∗ boundary (c.tc : Thread nD τ) ∗ (dats m 0 c).arrays G
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, Pipeline.unscopedRestP_none, unscopedRest0_eq, unscopedRest0_eq]
  unfold Dat.arrays
  rw [bigSep_W0]
  rw [arr_pt m c 0 _ (share0 m c) G, arr_pt m c 1 _ (share1 m c) G, arr_pt m c 2 _ rfl G, arr_pt m c 3 _ rfl G, arr_pt m c 4 _ rfl G,
    arr_pt m c 5 _ rfl G, arr_pt m c 6 _ rfl G, arr_pt m c 7 _ rfl G, arr_pt m c 8 _ rfl G]
  rw [WendOf_keeps m c (G 8) main_arg0 (by decide) (by decide), WendOf_keeps m c (G 8) main_c (by decide) (by decide),
    WendOf_keeps m c (G 8) main_call0_v0 (by decide) (by decide)]
  iintro ⟨Hk, Hb, ⟨A0, A1, A2, A3, A4, A5, A6, A7, A8⟩, ⟨R0, Rc, Rv, R2⟩⟩
  ihave Hh := (held_exit m c (G 8)) $$ [A8 R2]
  · isplitl [A8]; · iexact A8
    iexact R2
  iapply (Pipeline.wp_seqs_then (Ix := Unit) (Name := ℕ) (U := UR sig nD τ) (Lvl := ℕ) pcfgs defs₀ Variants.none c
    {Proc.devRef .tc main_v1, Proc.devRef .tc main_v2} [] [hostOps1] hostOps1_bufs hostOps1_nofresh (WxOf m c (G 8))) $$ [Hb Hh]
  · isplitl [Hb]; · iexact Hb
    iexact Hh
  iintro ⟨-, Hh⟩
  rw [Pipeline.chain_nil, wp_pure]
  imodintro
  iapply Hk
  icases (held_end m c (G 8)) $$ Hh with ⟨A8, R2⟩
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [R0]; · iexact R0
  isplitl [Rc]; · iexact Rc
  isplitl [Rv]; · iexact Rv
  iexact R2

theorem hX (c : Dev nD) : (Pipeline.unscopedRestP (Ix := Unit) (Name := ℕ) (U := UR sig nD τ) (Lvl := ℕ) Pipeline.Prefetch.none spec0 c (V m c) : sProp 𝕄)
    ⊢ iprop(emp ∗ Pipeline.unscopedRestP (Ix := Unit) (Name := ℕ) (U := UR sig nD τ) (Lvl := ℕ) Pipeline.Prefetch.none spec0 c (V m c)) := by
  iintro H; isplitr; · iempintro
  iexact H

theorem hin (c : Dev nD) : iprop((emp : sProp 𝕄) ∗ Pipeline.prefHeld (Ix := Unit) (Name := ℕ) (U := UR sig nD τ) (Lvl := ℕ) Pipeline.Prefetch.none c (fun _ => fullShare.right) ((cfgs 0).toPCfg_adm (Val := Elt F)).1 ∗ Pipeline.scopedRest spec0 c)
    ⊢ (dats m 0 c).Φ 0 := by
  iintro ⟨-, -, -⟩; iempintro

theorem hout (c : Dev nD) : (dats m 0 c).Φ (Fin.last cfg0.N) ⊢ iprop((emp : sProp 𝕄) ∗ Pipeline.scopedRest spec0 c) := by
  rw [scopedRest0_eq]; iintro -; isplitr <;> iempintro

theorem hY (c : Dev nD) (s' : Phys nD τ sig (Elt F)) :
    iprop((emp : sProp 𝕄) ∗ Pipeline.unscopedRestP (Ix := Unit) (Name := ℕ) (U := UR sig nD τ) (Lvl := ℕ) Pipeline.Prefetch.none spec0 c (Wend m c) ∗ SI s')
      ⊢ |={Set.univ}=> iprop(⌜∀ b ∈ Pipeline.restRefsP sig Pipeline.Prefetch.none spec0, s'.mem.mem ((c.tc : Thread nD τ).loc b) = Wend m c b⌝ ∗ SI s') := by
  iintro ⟨-, HU, HSI⟩
  unfold Pipeline.unscopedRestP
  imodintro
  iapply (pointsTo_read_all (Pipeline.restRefsP sig Pipeline.Prefetch.none spec0) (fun b => (c.tc : Thread nD τ).loc b) (Wend m c) s')
  isplitl [HU] <;> iassumption

/-! ## The run -/

/-- What the run ends in: every operand's array at what the write-backs left, every other buffer at its contents after
    the slice. -/
def Post : PUnit × MemSt nD τ sig (Elt F) → Prop := fun r =>
  ∀ c : Dev nD, (∀ w : Fin cfg0.W, r.2.mem ((cfg0.win w).arr.view.loc (c.tc : Thread nD τ)) = (dats m 0 c).arrAt w cfg0.N)
    ∧ ∀ b ∈ Pipeline.restRefsP sig Pipeline.Prefetch.none spec0, r.2.mem ((c.tc : Thread nD τ).loc b) = Wend m c b

set_option backward.isDefEq.respectTransparency.types false in
/-- From any memory with every counter at zero, every weakly fair execution of the program terminates, faults nowhere,
    and ends as `Post` says. -/
theorem run_main : θ_run defs (onTc (τ := τ) (main (F := F))) (s₀ m ρ) (Post m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := body_obligation m) (hne := block_pos0) (harr := arr_whole0) (hstage := stage_whole0) (howed := fun _ _ => rfl)
    (u₀ := u₀) (hu₀ := BI.Entails.refl _)
    (V := V m) (hmain := hmain m Variants.none)
    (hsplit := hsplit m) (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m c))
    (hX := hX m) (hin := hin m) (hout := hout m)
    (htail := fun c Q' => htailOf m c ((dats m 0 c).arrAt · cfg0.N) Q')
    (QY := fun c s => ∀ b ∈ Pipeline.restRefsP sig Pipeline.Prefetch.none spec0, s.mem ((c.tc : Thread nD τ).loc b) = Wend m c b)
    (hY := hY m)
    (hQ := fun s h c => ⟨(h c).1, (h c).2.2⟩)

/-- A buffer that is no operand's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- The result is the first 8190 positions of every batch row of the kernel's output array. -/
theorem Wend_v2 (c : Dev nD) (X : Buf (Elt F) ((c.tc : Thread nD τ).loc (Pipeline.arrRef spec0 8))) :
    WendOf m c X main_v2 = extractStridedSlice S64x8190 ![0, 0] X slices_S64x8192_S64x8190_0_0 := by
  unfold WendOf
  show StableHlo.after hostOps1 _ (Proc.devRef .tc main_v2) = _
  after_results
  have e : WxOf m c X (Proc.devRef .tc main_v1) = X := by unfold WxOf; exact Function.update_self _ _ _
  rw [e]

/-- An input operand's array is never written: it ends as launched. -/
theorem arr_kept (c : Dev nD) (w : Fin cfg0.W) (hin : (cfg0.win w).isOut = false)
    (h0 : Pipeline.arrRef spec0 w ≠ main_c) (h1 : Pipeline.arrRef spec0 w ≠ main_call0_v0) (h2 : Pipeline.arrRef spec0 w ≠ main_v0) :
    (dats m 0 c).arrAt w cfg0.N = m ((c : Thread nD τ).loc (Pipeline.arrRef spec0 w)) := by
  rw [(dats m 0 c).arrAt_in w hin, A_eq]
  exact V_arg m c _ h0 h1 h2

/-- THE RUN, read at the result and at the seven argument arrays. -/
theorem run_full : θ_run defs (onTc (τ := τ) (main (F := F))) ⟨m, fun _ => 0, ρ⟩ (fun r => ∀ c : Dev nD,
      r.2.mem ((c.tc : Thread nD τ).loc main_v2)
          = extractStridedSlice S64x8190 ![0, 0] ((dats m 0 c).arrAt 8 cfg0.N) slices_S64x8192_S64x8190_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v2 (mem_rest main_v2 (by decide) (by decide))).trans (Wend_v2 m c _),
      ((h c).2 main_arg0 (mem_rest main_arg0 (by decide) (by decide))).trans
        ((WendOf_keeps m c _ main_arg0 (by decide) (by decide)).trans (V_arg m c main_arg0 (by decide) (by decide) (by decide))),
      ((h c).1 2).trans (arr_kept m c 2 rfl (by decide) (by decide) (by decide)),
      ((h c).1 3).trans (arr_kept m c 3 rfl (by decide) (by decide) (by decide)),
      ((h c).1 4).trans (arr_kept m c 4 rfl (by decide) (by decide) (by decide)),
      ((h c).1 5).trans (arr_kept m c 5 rfl (by decide) (by decide) (by decide)),
      ((h c).1 6).trans (arr_kept m c 6 rfl (by decide) (by decide) (by decide)),
      ((h c).1 7).trans (arr_kept m c 7 rfl (by decide) (by decide) (by decide))⟩)
    (run_main m ρ)

end Cert.Kernel.Hand

end
-- ==== Proof.KIData.lean ====
/-
  The staged program's frame, first part: what the kernel region finds and what its body leaves.

  The program pads the sequence axis with 8 zero rows, runs one kernel over a 4 × 16 grid of tiles, and keeps the first
  8190 positions of each batch row. Two of the kernel's nine operands are blocks of the SAME padded array: a tile of 512
  rows, and the 8 rows that follow it. Neither is written, so the array is shared between the two: each holds half of
  the right to it. At every grid point the body reads eight staged operands and stores one 16 × 512 tile.
-/
import proofs.«171845_j27668179321223_1_alg».proof.Proof.Gen.KernelIdeal.Launch
import proofs.«171845_j27668179321223_1_alg».proof.Proof.Gen.KernelIdeal.Skeleton
import proofs.«171845_j27668179321223_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The buffers' contents when the region is entered: the launch contents after the three operations before it (the
    zero constant, its conversion, the padding). -/
abbrev V0 (c : Dev nD) : Valuation τ sig (Elt F) := StableHlo.after (List.flatten [hostOps0, hostOps0_1]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the operations before the region, the region, the slice after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

/-- No operation before the region writes an argument array: the region finds each as launched. -/
theorem V_arg (c : Dev nD) (b : Ref sig .tc) (h0 : b ≠ main_c) (h1 : b ≠ main_call0_v0) (h2 : b ≠ main_v0) :
    V m c b = m ((c : Thread nD τ).loc b) :=
  StableHlo.after_of_forall_not_mem (b := Proc.devRef .tc b) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.TRef.unary, StableHlo.TRef.binary, Finset.mem_singleton]
    exact ⟨StableHlo.devRef_ne_of_ne h0, StableHlo.devRef_ne_of_ne h1, StableHlo.devRef_ne_of_ne h2⟩))

/-! ## The operands' blocks -/

/-- Operand w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 512-row tile as its staging buffer holds it. Its blocks do not divide the padded axis (8200 rows), so the
    buffer is described through the part of it a transfer moves; on this grid that part is always the whole tile. -/
def blk0 (c : Dev nD) (t : Fin cfg0.N) : S16x512x17.Idx → Elt F .f32 :=
  win0_0.fill (grid0.coords t) (fun _ => Scalar.ofBits .f32 0#32) (iblk m c 0 t)

/-- No tile of the grid overhangs the padded array: row 512 · 15 + 511 is below 8200. -/
theorem noclip0 : ∀ t : Fin cfg0.N, ∀ a, (cfg0.win 0).clip (cfg0.grid.coords t) a = none :=
  (by decide +kernel : ∀ t : Fin grid0.N, ∀ a, win0_0.clip (grid0.coords t) a = none)

/-! ## What the body stores -/

abbrev r0 : Rect S16x512x17 := Rect.unit (s := S16x512x17) ![0, 0, 0] S16x512x17.size inb_S16x512x17_S16x512x17_0_0_0
abbrev r1 : Rect S16x8x17 := Rect.unit (s := S16x8x17) ![0, 0, 0] S16x8x17.size inb_S16x8x17_S16x8x17_0_0_0
abbrev r2 : Rect S51x128 := Rect.unit (s := S51x128) ![0, 0] S51x128.size inb_S51x128_S51x128_0_0
abbrev r3 : Rect S128 := Rect.unit (s := S128) ![0] S128.size inb_S128_S128_0
abbrev r4 : Rect S128x64 := Rect.unit (s := S128x64) ![0, 0] S128x64.size inb_S128x64_S128x64_0_0
abbrev r5 : Rect S64 := Rect.unit (s := S64) ![0] S64.size inb_S64_S64_0
abbrev r6 : Rect S64x1 := Rect.unit (s := S64x1) ![0, 0] S64x1.size inb_S64x1_S64x1_0_0
abbrev r7 : Rect S1 := Rect.unit (s := S1) ![0] S1.size inb_S1_S1_0
abbrev r8 : Rect S16x512 := Rect.unit (s := S16x512) ![0, 0] S16x512.size inb_S16x512_S16x512_0_0

/-- The output tile after the body, from the eight operands' staged blocks: its one store, of the scores. -/
def out8 (x0 : Vec F S16x512x17 .f32) (x1 : Vec F S16x8x17 .f32) (x2 : Vec F S51x128 .f32) (x3 : Vec F S128 .f32)
    (x4 : Vec F S128x64 .f32) (x5 : Vec F S64 .f32) (x6 : Vec F S64x1 .f32) (x7 : Vec F S1 .f32) : Vec F S16x512 .f32 :=
  View.canon [⟨r8, k0_pay1 (k0_pay2 (View.ld x0 r0) (View.ld x1 r1) (View.ld x2 r2) (View.ld x3 r3) (View.ld x4 r4)
    (View.ld x5 r5) (View.ld x6 r6) (View.ld x7 r7))⟩]

/-- The store covers the tile. -/
theorem cover8 (p0 : Vec F S16x512 .f32) (y : S16x512.Idx) :
    ∃ pc ∈ ([⟨r8, p0⟩] : List (View.Piece (Elt F) S16x512 .f32)), y ∈ pc.1.set :=
  View.cover_of_tiled [⟨r8, p0⟩] S16x512.size (by rfl) y

/-! ## The proof data -/

/-- Per core: the arrays as the region finds them; after the body each operand's buffer at its block and the output's
    at the stored scores; nothing else is kept between points; the two blocks of the padded array at half its right
    each. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (blk0 m c t) (iblk m c 1 t) (iblk m c 2 t) (iblk m c 3 t) (iblk m c 4 t) (iblk m c 5 t) (iblk m c 6 t) (iblk m c 7 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = out8 (blk0 m c t) (iblk m c 1 t) (iblk m c 2 t) (iblk m c 3 t) (iblk m c 4 t) (iblk m c 5 t) (iblk m c 6 t) (iblk m c 7 t) := by
  dsimp only [dats]

/-! ## What the body finds -/

/-- The tile's buffer was just fetched; the fetch fills all of it, so what was there before does not show. -/
theorem before0 (c : Dev nD) (t : Fin cfg0.N) (d) : (dats m 0 c).before 0 t d = blk0 m c t := by
  rw [(dats m 0 c).before_fetched 0 t (fetch0_0 t) d,
    (dats m 0 c).fetched_of_clip_none 0 t (noclip0 t) d (fun _ => Scalar.ofBits .f32 0#32)]
  unfold Dat.fetched Dat.blockOf blk0 iblk
  rw [A_eq]; try rfl

/-- The 8 rows after the tile: fetched at every point. -/
theorem before1 (c : Dev nD) (t : Fin cfg0.N) (d) : (dats m 0 c).before 1 t d = iblk m c 1 t := by
  rw [(dats m 0 c).before_fetched 1 t (fetch0_1 t) d]
  unfold Dat.fetched Dat.blockOf iblk
  rw [A_eq]; try rfl

/-- A weight or bias array is one block, fetched once; the body leaves it in place, so every later point finds it. -/
theorem before_w (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hafter : ∀ t, (cfg0.win w).cut (cfg0.grid.coords t) ((dats m 0 c).after w t) = (dats m 0 c).blockOf w t)
    (t : Fin cfg0.N) (d) : (dats m 0 c).before w t d = (dats m 0 c).fetched w t d :=
  (dats m 0 c).before_in_eq_fetched w hw hlive hclip hafter t d

theorem before2 (c : Dev nD) (t : Fin cfg0.N) (d) : (dats m 0 c).before 2 t d = iblk m c 2 t :=
  (before_w m c 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  (before_w m c 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  (before_w m c 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  (before_w m c 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  (before_w m c 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  (before_w m c 7 rfl (fun _ => rfl) (fun _ _ _ => rfl) (fun t => by rw [after7]; unfold Dat.blockOf iblk; rw [A_eq]; try rfl) t d).trans
    (by unfold Dat.fetched Dat.blockOf iblk; rw [A_eq]; try rfl)

end Cert.KernelIdeal.Hand

end
-- ==== Proof.KIBody.lean ====
/-
  The staged program's frame, second part: the body at a grid point.

  At every point the eight operands' staging buffers hold their blocks and the output's holds anything; the body loads
  the eight, computes the scores of the tile's 16 × 512 positions and stores them, leaving the operands' buffers as
  they were.
-/
import proofs.«171845_j27668179321223_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging buffers, the eight operands' at read contents x0 … x7 and the output's at anything: it
    runs, leaves the operands' buffers as they were and the output's at the stored scores. -/
theorem sound_kernel (c : Dev nD) (E : Set ℕ) (i : grid0.Coords) (arg2 : Memref sig .tc .vmem S16x512x17 .f32) (harg2 : arg2.IsWhole) (arg3 : Memref sig .tc .vmem S16x8x17 .f32) (harg3 : arg3.IsWhole) (arg4 : Memref sig .tc .vmem S51x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S64x1 .f32) (harg8 : arg8.IsWhole) (arg9 : Memref sig .tc .vmem S1 .f32) (harg9 : arg9.IsWhole) (arg10 : Memref sig .tc .vmem S16x512 .f32) (harg10 : arg10.IsWhole)
    (x0 : Vec F S16x512x17 .f32) (x1 : Vec F S16x8x17 .f32) (x2 : Vec F S51x128 .f32) (x3 : Vec F S128 .f32) (x4 : Vec F S128x64 .f32) (x5 : Vec F S64 .f32) (x6 : Vec F S64x1 .f32) (x7 : Vec F S1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out8 x0 x1 x2 x3 x4 x5 x6 x7)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover8 _)

/-- The body at any grid point, on what the pipeline hands it there. The 512-row tile's buffer is handed back described
    on the part a transfer moves, which is all of it. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0 m c t d0, before1 m c t d1, before2 m c t d2, before3 m c t d3, before4 m c t d4, before5 m c t d5, before6 m c t d6, before7 m c t d7]
  iapply (sound_kernel (F := F) c Set.univ (grid0.coords t) _ _ _ _ _ _ _ _ _ _ _ _ _ _ _ _ _ _
    (blk0 m c t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists (blk0 m c t)
    rw [after0, Window.fill_cut]; iexact H0
  isplitl [H1]; · rw [after1]; iexact H1
  isplitl [H2]; · rw [after2]; iexact H2
  isplitl [H3]; · rw [after3]; iexact H3
  isplitl [H4]; · rw [after4]; iexact H4
  isplitl [H5]; · rw [after5]; iexact H5
  isplitl [H6]; · rw [after6]; iexact H6
  isplitl [H7]; · rw [after7]; iexact H7
  rw [after8]; iexact H8

end Cert.KernelIdeal.Hand

end
-- ==== Proof.KILaunch.lean ====
/-
  The staged program's frame, third part: the launch.

  The region is entered with every array whole; the padded array is split in two halves of its right, one for each of
  the two operands that read it, and joined again when the region ends. After the region one slice keeps the first
  8190 positions of every batch row. The run ends with every argument array as launched and the result at that slice
  of what the kernel wrote.
-/
import proofs.«171845_j27668179321223_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the region ends, given what the write-backs left in the output array: as the region found
    them, but the output array at that. -/
def WxOf (c : Dev nD) (X : Buf (Elt F) ((c.tc : Thread nD τ).loc (Pipeline.arrRef spec0 8))) : Valuation τ sig (Elt F) :=
  Function.update (V0 m c) (Proc.devRef .tc main_v1) X

/-- And after the slice that follows the region. -/
def WendOf (c : Dev nD) (X : Buf (Elt F) ((c.tc : Thread nD τ).loc (Pipeline.arrRef spec0 8))) (b : Ref sig .tc) :
    Buf (Elt F) ((c : Thread nD τ).loc b) :=
  StableHlo.after hostOps1 (WxOf m c X) (Proc.devRef .tc b)

/-- The contents at the end of the run. -/
abbrev Wend (c : Dev nD) (b : Ref sig .tc) : Buf (Elt F) ((c : Thread nD τ).loc b) :=
  WendOf m c ((dats m 0 c).arrAt 8 cfg0.N) b

/-- The launch element of the pipeline's resource algebra. -/
def u₀ : UR sig nD τ := initOf (Pipeline.cells cfgs cellOf_inj) (Pipeline.launchToks cfgs cellOf_inj)

open Idealize.SL.BI (bigSepL bigSep_eq_bigSepL_of_eq)

/-- The distinct arrays behind the nine operands, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_arg4) ↦{fullShare} W main_arg4) ∗ (((c : Thread nD τ).loc main_arg5) ↦{fullShare} W main_arg5)
          ∗ (((c : Thread nD τ).loc main_arg6) ↦{fullShare} W main_arg6) ∗ (((c : Thread nD τ).loc main_v1) ↦{fullShare} W main_v1)) := by
  unfold Pipeline.arrBufs
  exact bigSep_eq_bigSepL_of_eq [main_v0, main_arg1, main_arg2, main_arg3, main_arg4, main_arg5, main_arg6, main_v1] (by decide) (by decide) _

/-- One operand's array in the form the pipeline holds it: whole, at the operand's share. -/
theorem arr_pt (c : Dev nD) (w : Fin cfg0.W) (q : PosShare TreeShare) (hq : (dats m 0 c).share w = q)
    (G : (w : Fin cfg0.W) → Buf (Elt F) ((cfg0.win w).arr.view.loc (c.tc : Thread nD τ))) :
    (((cfg0.win w).arr.view.loc (c.tc : Thread nD τ) ↦[(cfg0.win w).arr.view.set]{(dats m 0 c).share w} G w) : sProp 𝕄)
      = (((c.tc : Thread nD τ).loc (Pipeline.arrRef spec0 w)) ↦{q} G w) := by
  rw [(arr_whole0 w).set_eq_univ, hq]

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share8 (c : Dev nD) : (dats m 0 c).share 8 = fullShare := rfl

theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  rw [arr_pt m c 0 _ (share0 m c) ((dats m 0 c).arrAt · 0), arr_pt m c 1 _ (share1 m c) ((dats m 0 c).arrAt · 0),
    arr_pt m c 2 _ rfl ((dats m 0 c).arrAt · 0), arr_pt m c 3 _ rfl ((dats m 0 c).arrAt · 0), arr_pt m c 4 _ rfl ((dats m 0 c).arrAt · 0),
    arr_pt m c 5 _ rfl ((dats m 0 c).arrAt · 0), arr_pt m c 6 _ rfl ((dats m 0 c).arrAt · 0), arr_pt m c 7 _ rfl ((dats m 0 c).arrAt · 0),
    arr_pt m c 8 _ rfl ((dats m 0 c).arrAt · 0)]
  iintro ⟨Hv0, H1, H2, H3, H4, H5, H6, Hv1⟩
  icases (pointsTo_share (PosShare.mem_left_op_right fullShare)).1 $$ Hv0 with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  iexact Hv1

/-- A set of two buffers held is the two points-tos. -/
theorem held_pair (c : Dev nD) (a b : DevRef τ sig) (hab : a ≠ b) (W : Valuation τ sig (Elt F)) :
    (StableHlo.held (c.tc : Thread nD τ) {a, b} W : sProp 𝕄)
      = iprop((((c.tc : Thread nD τ).1, a) ↦{fullShare} W a) ∗ (((c.tc : Thread nD τ).1, b) ↦{fullShare} W b)) := by
  unfold StableHlo.held
  rw [bigSep_insert (by rw [Finset.mem_singleton]; exact hab), BI.bigSep_singleton]
  rfl

theorem v1_ne_v2 : (Proc.devRef (τ := τ) .tc main_v1 : DevRef τ sig) ≠ Proc.devRef .tc main_v2 :=
  StableHlo.devRef_ne_of_ne (by decide)

/-- The slice writes the result buffer only. -/
theorem hostOps1_keeps (b : Ref sig .tc) (hb : b ≠ main_v2) (W : Valuation τ sig (Elt F)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- A buffer that is neither the kernel's output array nor the result ends as the region found it. -/
theorem WendOf_keeps (c : Dev nD) (X) (b : Ref sig .tc) (h1 : b ≠ main_v1) (h2 : b ≠ main_v2) : WendOf m c X b = V m c b := by
  unfold WendOf
  rw [hostOps1_keeps b h2]
  unfold WxOf
  exact Function.update_of_ne (StableHlo.devRef_ne_of_ne h1) _ _

/-- The output array is not touched by the slice. -/
theorem WxOf_v1 (c : Dev nD) (X) : StableHlo.after hostOps1 (WxOf m c X) (Proc.devRef .tc main_v1) = X := by
  rw [hostOps1_keeps main_v1 (by decide)]
  unfold WxOf
  exact Function.update_self _ _ _

theorem hostOps1_bufs : ∀ ops ∈ ([hostOps1] : List (List (HloOp τ sig (Elt F)))), ∀ op ∈ ops,
    op.bufs ⊆ ({Proc.devRef .tc main_v1, Proc.devRef .tc main_v2} : Finset (DevRef τ sig)) := by
  intro ops hops op hop
  simp only [List.mem_cons, List.mem_nil_iff, or_false] at hops
  subst hops
  simp only [hostOps1, List.mem_cons, List.mem_nil_iff, or_false] at hop
  subst hop
  exact subset_refl _

theorem hostOps1_nofresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The two buffers the slice touches, held at the region's exit contents. -/
theorem held_exit (c : Dev nD) (X : Buf (Elt F) ((c.tc : Thread nD τ).loc (Pipeline.arrRef spec0 8))) :
    iprop((((c.tc : Thread nD τ).loc (Pipeline.arrRef spec0 8)) ↦{fullShare} X) ∗ (((c.tc : Thread nD τ).loc main_v2) ↦{fullShare} V m c main_v2))
      ⊢ (StableHlo.held (c.tc : Thread nD τ) {Proc.devRef .tc main_v1, Proc.devRef .tc main_v2} (WxOf m c X) : sProp 𝕄) := by
  rw [held_pair c _ _ v1_ne_v2]
  refine Entails.of_eq ?_
  congr 1

/-- And after the slice. -/
theorem held_end (c : Dev nD) (X : Buf (Elt F) ((c.tc : Thread nD τ).loc (Pipeline.arrRef spec0 8))) :
    (StableHlo.held (c.tc : Thread nD τ) {Proc.devRef .tc main_v1, Proc.devRef .tc main_v2}
        (StableHlo.after ([hostOps1] : List (List (HloOp τ sig (Elt F)))).flatten (WxOf m c X)) : sProp 𝕄)
      ⊢ iprop((((c.tc : Thread nD τ).loc (Pipeline.arrRef spec0 8)) ↦{fullShare} X) ∗ (((c.tc : Thread nD τ).loc main_v2) ↦{fullShare} WendOf m c X main_v2)) := by
  rw [held_pair c _ _ v1_ne_v2,
    show ([hostOps1] : List (List (HloOp τ sig (Elt F)))).flatten = hostOps1 from by simp only [List.flatten_cons, List.flatten_nil, List.append_nil],
    WxOf_v1 m c X]
  exact Entails.of_eq rfl

set_option backward.isDefEq.respectTransparency.types false in
set_option maxHeartbeats 800000 in
/-- After the region, whatever the write-backs left in the arrays: the slice reads the kernel's output array and writes
    the result; every other buffer stays. -/
theorem htailOf (c : Dev nD) (G : (w : Fin cfg0.W) → Buf (Elt F) ((cfg0.win w).arr.view.loc (c.tc : Thread nD τ))) (Q' : PUnit → sProp 𝕄) :
    iprop((iprop((dats m 0 c).arrays G
              ∗ Pipeline.unscopedRestP (Ix := Unit) (Name := ℕ) (U := UR sig nD τ) (Lvl := ℕ) Pipeline.Prefetch.none spec0 c (WendOf m c (G 8))) -∗ Q' ⟨⟩)
        ∗ boundary (c.tc : Thread nD τ) ∗ (dats m 0 c).arrays G
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, Pipeline.unscopedRestP_none, unscopedRest0_eq, unscopedRest0_eq]
  unfold Dat.arrays
  rw [bigSep_W0]
  rw [arr_pt m c 0 _ (share0 m c) G, arr_pt m c 1 _ (share1 m c) G, arr_pt m c 2 _ rfl G, arr_pt m c 3 _ rfl G, arr_pt m c 4 _ rfl G,
    arr_pt m c 5 _ rfl G, arr_pt m c 6 _ rfl G, arr_pt m c 7 _ rfl G, arr_pt m c 8 _ rfl G]
  rw [WendOf_keeps m c (G 8) main_arg0 (by decide) (by decide), WendOf_keeps m c (G 8) main_c (by decide) (by decide),
    WendOf_keeps m c (G 8) main_call0_v0 (by decide) (by decide)]
  iintro ⟨Hk, Hb, ⟨A0, A1, A2, A3, A4, A5, A6, A7, A8⟩, ⟨R0, Rc, Rv, R2⟩⟩
  ihave Hh := (held_exit m c (G 8)) $$ [A8 R2]
  · isplitl [A8]; · iexact A8
    iexact R2
  iapply (Pipeline.wp_seqs_then (Ix := Unit) (Name := ℕ) (U := UR sig nD τ) (Lvl := ℕ) pcfgs defs₀ Variants.none c
    {Proc.devRef .tc main_v1, Proc.devRef .tc main_v2} [] [hostOps1] hostOps1_bufs hostOps1_nofresh (WxOf m c (G 8))) $$ [Hb Hh]
  · isplitl [Hb]; · iexact Hb
    iexact Hh
  iintro ⟨-, Hh⟩
  rw [Pipeline.chain_nil, wp_pure]
  imodintro
  iapply Hk
  icases (held_end m c (G 8)) $$ Hh with ⟨A8, R2⟩
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [R0]; · iexact R0
  isplitl [Rc]; · iexact Rc
  isplitl [Rv]; · iexact Rv
  iexact R2

theorem hX (c : Dev nD) : (Pipeline.unscopedRestP (Ix := Unit) (Name := ℕ) (U := UR sig nD τ) (Lvl := ℕ) Pipeline.Prefetch.none spec0 c (V m c) : sProp 𝕄)
    ⊢ iprop(emp ∗ Pipeline.unscopedRestP (Ix := Unit) (Name := ℕ) (U := UR sig nD τ) (Lvl := ℕ) Pipeline.Prefetch.none spec0 c (V m c)) := by
  iintro H; isplitr; · iempintro
  iexact H

theorem hin (c : Dev nD) : iprop((emp : sProp 𝕄) ∗ Pipeline.prefHeld (Ix := Unit) (Name := ℕ) (U := UR sig nD τ) (Lvl := ℕ) Pipeline.Prefetch.none c (fun _ => fullShare.right) ((cfgs 0).toPCfg_adm (Val := Elt F)).1 ∗ Pipeline.scopedRest spec0 c)
    ⊢ (dats m 0 c).Φ 0 := by
  iintro ⟨-, -, -⟩; iempintro

theorem hout (c : Dev nD) : (dats m 0 c).Φ (Fin.last cfg0.N) ⊢ iprop((emp : sProp 𝕄) ∗ Pipeline.scopedRest spec0 c) := by
  rw [scopedRest0_eq]; iintro -; isplitr <;> iempintro

theorem hY (c : Dev nD) (s' : Phys nD τ sig (Elt F)) :
    iprop((emp : sProp 𝕄) ∗ Pipeline.unscopedRestP (Ix := Unit) (Name := ℕ) (U := UR sig nD τ) (Lvl := ℕ) Pipeline.Prefetch.none spec0 c (Wend m c) ∗ SI s')
      ⊢ |={Set.univ}=> iprop(⌜∀ b ∈ Pipeline.restRefsP sig Pipeline.Prefetch.none spec0, s'.mem.mem ((c.tc : Thread nD τ).loc b) = Wend m c b⌝ ∗ SI s') := by
  iintro ⟨-, HU, HSI⟩
  unfold Pipeline.unscopedRestP
  imodintro
  iapply (pointsTo_read_all (Pipeline.restRefsP sig Pipeline.Prefetch.none spec0) (fun b => (c.tc : Thread nD τ).loc b) (Wend m c) s')
  isplitl [HU] <;> iassumption

/-! ## The run -/

/-- What the run ends in: every operand's array at what the write-backs left, every other buffer at its contents after
    the slice. -/
def Post : PUnit × MemSt nD τ sig (Elt F) → Prop := fun r =>
  ∀ c : Dev nD, (∀ w : Fin cfg0.W, r.2.mem ((cfg0.win w).arr.view.loc (c.tc : Thread nD τ)) = (dats m 0 c).arrAt w cfg0.N)
    ∧ ∀ b ∈ Pipeline.restRefsP sig Pipeline.Prefetch.none spec0, r.2.mem ((c.tc : Thread nD τ).loc b) = Wend m c b

set_option backward.isDefEq.respectTransparency.types false in
/-- From any memory with every counter at zero, every weakly fair execution of the program terminates, faults nowhere,
    and ends as `Post` says. -/
theorem run_main : θ_run defs (onTc (τ := τ) (main (F := F))) (s₀ m ρ) (Post m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := body_obligation m) (hne := block_pos0) (harr := arr_whole0) (hstage := stage_whole0) (howed := fun _ _ => rfl)
    (u₀ := u₀) (hu₀ := BI.Entails.refl _)
    (V := V m) (hmain := hmain m Variants.none)
    (hsplit := hsplit m) (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wend m c))
    (hX := hX m) (hin := hin m) (hout := hout m)
    (htail := fun c Q' => htailOf m c ((dats m 0 c).arrAt · cfg0.N) Q')
    (QY := fun c s => ∀ b ∈ Pipeline.restRefsP sig Pipeline.Prefetch.none spec0, s.mem ((c.tc : Thread nD τ).loc b) = Wend m c b)
    (hY := hY m)
    (hQ := fun s h c => ⟨(h c).1, (h c).2.2⟩)

/-- A buffer that is no operand's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- The result is the first 8190 positions of every batch row of the kernel's output array. -/
theorem Wend_v2 (c : Dev nD) (X : Buf (Elt F) ((c.tc : Thread nD τ).loc (Pipeline.arrRef spec0 8))) :
    WendOf m c X main_v2 = extractStridedSlice S64x8190 ![0, 0] X slices_S64x8192_S64x8190_0_0 := by
  unfold WendOf
  show StableHlo.after hostOps1 _ (Proc.devRef .tc main_v2) = _
  after_results
  have e : WxOf m c X (Proc.devRef .tc main_v1) = X := by unfold WxOf; exact Function.update_self _ _ _
  rw [e]

/-- An input operand's array is never written: it ends as launched. -/
theorem arr_kept (c : Dev nD) (w : Fin cfg0.W) (hin : (cfg0.win w).isOut = false)
    (h0 : Pipeline.arrRef spec0 w ≠ main_c) (h1 : Pipeline.arrRef spec0 w ≠ main_call0_v0) (h2 : Pipeline.arrRef spec0 w ≠ main_v0) :
    (dats m 0 c).arrAt w cfg0.N = m ((c : Thread nD τ).loc (Pipeline.arrRef spec0 w)) := by
  rw [(dats m 0 c).arrAt_in w hin, A_eq]
  exact V_arg m c _ h0 h1 h2

/-- THE RUN, read at the result and at the seven argument arrays. -/
theorem run_full : θ_run defs (onTc (τ := τ) (main (F := F))) ⟨m, fun _ => 0, ρ⟩ (fun r => ∀ c : Dev nD,
      r.2.mem ((c.tc : Thread nD τ).loc main_v2)
          = extractStridedSlice S64x8190 ![0, 0] ((dats m 0 c).arrAt 8 cfg0.N) slices_S64x8192_S64x8190_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v2 (mem_rest main_v2 (by decide) (by decide))).trans (Wend_v2 m c _),
      ((h c).2 main_arg0 (mem_rest main_arg0 (by decide) (by decide))).trans
        ((WendOf_keeps m c _ main_arg0 (by decide) (by decide)).trans (V_arg m c main_arg0 (by decide) (by decide) (by decide))),
      ((h c).1 2).trans (arr_kept m c 2 rfl (by decide) (by decide) (by decide)),
      ((h c).1 3).trans (arr_kept m c 3 rfl (by decide) (by decide) (by decide)),
      ((h c).1 4).trans (arr_kept m c 4 rfl (by decide) (by decide) (by decide)),
      ((h c).1 5).trans (arr_kept m c 5 rfl (by decide) (by decide) (by decide)),
      ((h c).1 6).trans (arr_kept m c 6 rfl (by decide) (by decide) (by decide)),
      ((h c).1 7).trans (arr_kept m c 7 rfl (by decide) (by decide) (by decide))⟩)
    (run_main m ρ)

end Cert.KernelIdeal.Hand

end
-- ==== Proof.Spec.lean ====
/-
  The function both programs compute, one output position at a time.

  A position's 51-entry window is three consecutive rows of 17 tag scores glued end to end. The window goes through three
  affine layers — 51 → 128 → 64 → 1 — the first two followed by max(·, 0), the last by the logistic function. Sums are
  finite sums of extended reals, so their order and grouping are immaterial.
-/
import Idealize.ShloMosaic.PureOps.Ideal
import Idealize.ShloMosaic.Lib.ValueIdx

noncomputable section

open scoped BigOperators

namespace Cert.Spec

open Idealize.ShloMosaic Idealize.ShloMosaic.ValueIdx

/-- The zero of max(·, 0), kept as the word both programs print. -/
abbrev zero : EReal := Ideal.ofBits .f32 0x00000000#32

/-- Three rows of 17 glued end to end: entry f comes from row f / 17 at column f % 17. -/
def win3 (r0 r1 r2 : Fin 17 → EReal) : Fin 51 → EReal := fun f =>
  if h0 : f.val < 17 then r0 ⟨f.val, h0⟩
  else if h1 : f.val < 34 then r1 ⟨f.val - 17, by omega⟩
  else r2 ⟨f.val - 34, by have := f.isLt; omega⟩

/-- Row r of batch entry b of a [B, R, 17] array, as a function of the column; a row past the array's end reads as zero
    (no output position that is kept reads such a row). -/
def row {B R : Nat} (a : (⟨3, ![B, R, 17]⟩ : Shape).Idx → EReal) (b : Fin B) (r : Nat) : Fin 17 → EReal := fun e =>
  if h : r < R then a (ix3 b ⟨r, h⟩ e) else 0

/-- Row r of the rows of x0 followed by the rows of x1 (a tile of R0 rows and the R1 rows after it): below R0 the row of
    x0, from R0 on the row r - R0 of x1. -/
def row2 {B R0 R1 : Nat} (x0 : (⟨3, ![B, R0, 17]⟩ : Shape).Idx → EReal) (x1 : (⟨3, ![B, R1, 17]⟩ : Shape).Idx → EReal)
    (b : Fin B) (r : Nat) : Fin 17 → EReal :=
  if r < R0 then row x0 b r else row x1 b (r - R0)

/-- The first layer at hidden unit j. -/
def layer1 (w : Fin 51 → EReal) (W1 : (⟨2, ![51, 128]⟩ : Shape).Idx → EReal) (b1 : (⟨1, ![128]⟩ : Shape).Idx → EReal)
    (j : Fin 128) : EReal :=
  max ((∑ f : Fin 51, w f * W1 (ix2 f j)) + b1 (ix1 j)) zero

/-- The second layer at hidden unit k, over the first layer's 128 values. -/
def layer2 (h1 : Fin 128 → EReal) (W2 : (⟨2, ![128, 64]⟩ : Shape).Idx → EReal) (b2 : (⟨1, ![64]⟩ : Shape).Idx → EReal)
    (k : Fin 64) : EReal :=
  max ((∑ j : Fin 128, h1 j * W2 (ix2 j k)) + b2 (ix1 k)) zero

/-- The score of one window. -/
def mlp (w : Fin 51 → EReal)
    (W1 : (⟨2, ![51, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 1]⟩ : Shape).Idx → EReal) (b3 : (⟨1, ![1]⟩ : Shape).Idx → EReal) : EReal :=
  Ideal.logistic ((∑ k : Fin 64, layer2 (layer1 w W1 b1) W2 b2 k * W3 (ix2 k (0 : Fin 1))) + b3 (ix1 (0 : Fin 1)))

/-- The score at position s of batch entry b of a [B, R, 17] array: the window is rows s, s + 1, s + 2. -/
def score {B R : Nat} (a : (⟨3, ![B, R, 17]⟩ : Shape).Idx → EReal)
    (W1 : (⟨2, ![51, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 1]⟩ : Shape).Idx → EReal) (b3 : (⟨1, ![1]⟩ : Shape).Idx → EReal) (b : Fin B) (s : Nat) : EReal :=
  mlp (win3 (row a b s) (row a b (s + 1)) (row a b (s + 2))) W1 b1 W2 b2 W3 b3

/-- Two arrays that agree on rows s, s + 1, s + 2 of batch entry b have the same score there. -/
theorem score_congr {B R R' : Nat} (a : (⟨3, ![B, R, 17]⟩ : Shape).Idx → EReal) (a' : (⟨3, ![B, R', 17]⟩ : Shape).Idx → EReal)
    (W1 : (⟨2, ![51, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 1]⟩ : Shape).Idx → EReal) (b3 : (⟨1, ![1]⟩ : Shape).Idx → EReal) (b : Fin B) (s : Nat)
    (h : ∀ d, d < 3 → row a b (s + d) = row a' b (s + d)) :
    score a W1 b1 W2 b2 W3 b3 b s = score a' W1 b1 W2 b2 W3 b3 b s := by
  unfold score
  rw [show row a b s = row a' b s from h 0 (by omega), h 1 (by omega), h 2 (by omega)]

end Cert.Spec

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelValue.lean ====
/-
  What the kernel's body computes for one tile, read at one output position: position q of row p of the 16 × 512 tile
  is the score of the window made of rows q, q + 1, q + 2 of the 520 rows the body assembles (the tile's 512 rows
  followed by the 8 rows after it).
-/
import proofs.«171845_j27668179321223_1_alg».proof.Proof.Gen.KernelIdeal.Skeleton
import proofs.«171845_j27668179321223_1_alg».proof.Proof.Spec
import proofs.«171845_j27668179321223_1_alg».proof.Proof.LibMatmul
import Idealize.ShloMosaic.Lib.Pipeline.Value
import Idealize.ShloMosaic.Lib.ValueLayout

noncomputable section

namespace Cert.KernelValue

open Idealize.ShloMosaic Idealize.ShloMosaic.ValueIdx Cert.KernelIdeal Cert.KernelIdeal.Gen

/-- An affine layer read at (r, c): the product into the zero accumulator plus the bias row, the same for every row. -/
theorem dense_apply {M K N : Nat} (a : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (hlt : FTy.bits .bf16 < FTy.bits .f32)
    (r : Fin M) (c : Fin N) :
    addf (FloatOps.matmul (DotDims.plain M K N) none (truncf .bf16 a hlt) (truncf .bf16 w hlt)
          (constant ⟨2, ![M, N]⟩ .f32 0x00000000#32))
        (broadcastTo ⟨2, ![M, N]⟩ (shapeCast ⟨2, ![1, N]⟩ b hc) hb) (ix2 r c)
      = (∑ k : Fin K, a (ix2 r k) * w (ix2 k c)) + b (ix1 c) := by
  rw [addf_apply, Cert.Matmul.matmul_plain_apply, broadcastTo_1b_ab_apply, shapeCast_a_1a_apply]
  rfl

/-- The 520 assembled rows (the tile's 512 followed by the 8 after it), read at batch entry p, row r, column e. -/
theorem rows_apply (x0 : FVec Ideal S16x512x17 .f32) (x1 : FVec Ideal S16x8x17 .f32)
    (h : Shape.Concatenates [S16x512x17, S16x8x17] S16x520x17 1) (p : Fin 16) (r : Fin 520) (e : Fin 17) :
    concatenate S16x520x17 1 [⟨S16x512x17, x0⟩, ⟨S16x8x17, x1⟩] h (ix3 p r e) = Cert.Spec.row2 x0 x1 p r.val e := by
  unfold Cert.Spec.row2
  by_cases hr : r.val < 512
  · rw [if_pos hr]
    refine (concatenate_pair_apply_left _ x0 x1 h (ix3 p r e) rfl (ix3 p ⟨r.val, hr⟩ e) (fun b => ?_)).trans ?_
    · match b with
      | ⟨0, _⟩ => rfl
      | ⟨1, _⟩ => rfl
      | ⟨2, _⟩ => rfl
    · unfold Cert.Spec.row
      rw [dif_pos hr]
  · rw [if_neg hr]
    have hr8 : r.val - 512 < 8 := by have := r.isLt; omega
    refine (concatenate_pair_apply_right _ x0 x1 h (ix3 p r e) rfl rfl (ix3 p ⟨r.val - 512, hr8⟩ e) (fun b hb => ?_) ?_).trans ?_
    · match b with
      | ⟨0, _⟩ => rfl
      | ⟨1, _⟩ => exact absurd rfl hb
      | ⟨2, _⟩ => rfl
    · show r.val - 512 + 512 = r.val
      omega
    · unfold Cert.Spec.row
      rw [dif_pos hr8]

/-- The 51-column window at (p, q): three 17-column slices of the assembled rows, at row offsets 0, 1, 2, glued along
    the columns, are the rows q, q + 1, q + 2 glued end to end. -/
theorem window_apply (v4 : FVec Ideal S16x520x17 .f32)
    (h0 : S16x520x17.Slices ![0, 0, 0] S16x512x17) (h1 : S16x520x17.Slices ![0, 1, 0] S16x512x17)
    (h2 : S16x520x17.Slices ![0, 2, 0] S16x512x17)
    (hc : Shape.Concatenates [S16x512x17, S16x512x17, S16x512x17] S16x512x51 2)
    (p : Fin 16) (q : Fin 512) (f : Fin 51) :
    concatenate S16x512x51 2 [⟨S16x512x17, extractStridedSlice S16x512x17 ![0, 0, 0] v4 h0⟩,
        ⟨S16x512x17, extractStridedSlice S16x512x17 ![0, 1, 0] v4 h1⟩,
        ⟨S16x512x17, extractStridedSlice S16x512x17 ![0, 2, 0] v4 h2⟩] hc (ix3 p q f)
      = Cert.Spec.win3 (fun e => v4 (ix3 p ⟨q.val, by omega⟩ e)) (fun e => v4 (ix3 p ⟨q.val + 1, by omega⟩ e))
          (fun e => v4 (ix3 p ⟨q.val + 2, by omega⟩ e)) f := by
  unfold Cert.Spec.win3
  by_cases hf0 : f.val < 17
  · rw [dif_pos hf0]
    refine (concatenate_apply_piece (t := S16x512x51) 2 [⟨S16x512x17, extractStridedSlice S16x512x17 ![0, 0, 0] v4 h0⟩,
        ⟨S16x512x17, extractStridedSlice S16x512x17 ![0, 1, 0] v4 h1⟩,
        ⟨S16x512x17, extractStridedSlice S16x512x17 ![0, 2, 0] v4 h2⟩] hc (ix3 p q f) 0 (by show 0 < 3; omega) S16x512x17 _ rfl rfl 0 rfl
      (ix3 p q ⟨f.val, hf0⟩) (fun b hb => ?_) ?_).trans ?_
    · match b with
      | ⟨0, _⟩ => rfl
      | ⟨1, _⟩ => rfl
      | ⟨2, _⟩ => exact absurd rfl hb
    · show 0 + f.val = f.val
      omega
    · exact slice3_axis1_apply 0 v4 h0 p q ⟨f.val, hf0⟩ ⟨q.val, by omega⟩ (by show q.val = 0 + q.val; omega)
  · rw [dif_neg hf0]
    by_cases hf1 : f.val < 34
    · rw [dif_pos hf1]
      refine (concatenate_apply_piece (t := S16x512x51) 2 [⟨S16x512x17, extractStridedSlice S16x512x17 ![0, 0, 0] v4 h0⟩,
        ⟨S16x512x17, extractStridedSlice S16x512x17 ![0, 1, 0] v4 h1⟩,
        ⟨S16x512x17, extractStridedSlice S16x512x17 ![0, 2, 0] v4 h2⟩] hc (ix3 p q f) 1 (by show 1 < 3; omega) S16x512x17 _ rfl rfl 17 rfl
        (ix3 p q ⟨f.val - 17, by omega⟩) (fun b hb => ?_) ?_).trans ?_
      · match b with
        | ⟨0, _⟩ => rfl
        | ⟨1, _⟩ => rfl
        | ⟨2, _⟩ => exact absurd rfl hb
      · show 17 + (f.val - 17) = f.val
        omega
      · exact slice3_axis1_apply 1 v4 h1 p q ⟨f.val - 17, by omega⟩ ⟨q.val + 1, by omega⟩ (by show q.val + 1 = 1 + q.val; omega)
    · rw [dif_neg hf1]
      refine (concatenate_apply_piece (t := S16x512x51) 2 [⟨S16x512x17, extractStridedSlice S16x512x17 ![0, 0, 0] v4 h0⟩,
        ⟨S16x512x17, extractStridedSlice S16x512x17 ![0, 1, 0] v4 h1⟩,
        ⟨S16x512x17, extractStridedSlice S16x512x17 ![0, 2, 0] v4 h2⟩] hc (ix3 p q f) 2 (by show 2 < 3; omega) S16x512x17 _ rfl rfl 34 rfl
        (ix3 p q ⟨f.val - 34, by omega⟩) (fun b hb => ?_) ?_).trans ?_
      · match b with
        | ⟨0, _⟩ => rfl
        | ⟨1, _⟩ => rfl
        | ⟨2, _⟩ => exact absurd rfl hb
      · show 34 + (f.val - 34) = f.val
        omega
      · exact slice3_axis1_apply 2 v4 h2 p q ⟨f.val - 34, by omega⟩ ⟨q.val + 2, by omega⟩ (by show q.val + 2 = 2 + q.val; omega)

/-- The body's stored value at position (p, q) of the tile. -/
theorem pay_apply (x0 : Vec Ideal S16x512x17 .f32) (x1 : Vec Ideal S16x8x17 .f32) (w1 : Vec Ideal S51x128 .f32)
    (b1 : Vec Ideal S128 .f32) (w2 : Vec Ideal S128x64 .f32) (b2 : Vec Ideal S64 .f32) (w3 : Vec Ideal S64x1 .f32)
    (b3 : Vec Ideal S1 .f32) (p : Fin 16) (q : Fin 512) :
    k0_pay1 (F := Ideal) (k0_pay2 (F := Ideal) x0 x1 w1 b1 w2 b2 w3 b3) (ix2 p q)
      = Cert.Spec.mlp (Cert.Spec.win3 (Cert.Spec.row2 x0 x1 p q.val) (Cert.Spec.row2 x0 x1 p (q.val + 1))
          (Cert.Spec.row2 x0 x1 p (q.val + 2))) w1 b1 w2 b2 w3 b3 := by
  unfold k0_pay1 k0_pay2
  -- position (p, q) of the tile is row 512 p + q of the 8192-row column the last layer produces
  have hrow : 512 * p.val + q.val < 8192 := by omega
  refine (shapeCast_apply _ shapeCasts_S8192x1_S16x512 (ix2 p q) (ix2 ⟨512 * p.val + q.val, hrow⟩ (0 : Fin 1)) ?_).trans ?_
  · rw [Shape.rowMajor_val_two, Shape.rowMajor_val_two]
    show (512 * p.val + q.val) * 1 + 0 = p.val * 512 + q.val
    omega
  -- the logistic function of the third affine layer
  unfold Cert.Spec.mlp
  refine congrArg Ideal.logistic ?_
  refine (dense_apply _ _ _ _ _ _ ⟨512 * p.val + q.val, hrow⟩ (0 : Fin 1)).trans ?_
  refine congrArg (· + b3 (ix1 (0 : Fin 1))) (Finset.sum_congr rfl fun k _ => ?_)
  refine congrArg (· * w3 (ix2 k (0 : Fin 1))) ?_
  -- the second layer at hidden unit k
  unfold Cert.Spec.layer2
  refine congrArg (max · Cert.Spec.zero) ?_
  refine (dense_apply _ _ _ _ _ _ ⟨512 * p.val + q.val, hrow⟩ k).trans ?_
  refine congrArg (· + b2 (ix1 k)) (Finset.sum_congr rfl fun j _ => ?_)
  refine congrArg (· * w2 (ix2 j k)) ?_
  -- the first layer at hidden unit j
  unfold Cert.Spec.layer1
  refine congrArg (max · Cert.Spec.zero) ?_
  refine (dense_apply _ _ _ _ _ _ ⟨512 * p.val + q.val, hrow⟩ j).trans ?_
  refine congrArg (· + b1 (ix1 j)) (Finset.sum_congr rfl fun f _ => ?_)
  refine congrArg (· * w1 (ix2 f j)) ?_
  -- entry f of the window: row 512 p + q of the 8192 × 51 matrix is position (p, q) of the 16 × 512 × 51 array
  refine (shapeCast_apply _ shapeCasts_S16x512x51_S8192x51 (ix2 ⟨512 * p.val + q.val, hrow⟩ f) (ix3 p q f) ?_).trans ?_
  · rw [Shape.rowMajor_val_three, Shape.rowMajor_val_two]
    show (p.val * 512 + q.val) * 51 + f.val = (512 * p.val + q.val) * 51 + f.val
    omega
  refine (window_apply _ _ _ _ _ p q f).trans ?_
  -- the three rows of the window are rows q, q + 1, q + 2 of the tile followed by the 8 rows after it
  rw [shapeCast_self x0, shapeCast_self x1]
  have hv : ∀ r : Fin 520, (fun e => concatenate S16x520x17 1 [⟨S16x512x17, x0⟩, ⟨S16x8x17, x1⟩]
      concatenates_S16x512x17_S16x8x17_S16x520x17_d1 (ix3 p r e)) = Cert.Spec.row2 x0 x1 p r.val :=
    fun r => funext fun e => rows_apply x0 x1 _ p r e
  exact congrFun (congr (congr (congrArg Cert.Spec.win3 (hv ⟨q.val, by omega⟩)) (hv ⟨q.val + 1, by omega⟩))
    (hv ⟨q.val + 2, by omega⟩)) f

end Cert.KernelValue

end
-- ==== Proof.KIValue.lean ====
/-
  The kernel's output array, whole: after all 64 tiles are written back, position s of batch row b holds the score of
  rows s, s + 1, s + 2 of the padded input; and below row 8192 the padded input is the input.
-/
import proofs.«171845_j27668179321223_1_alg».proof.Proof.KIData
import proofs.«171845_j27668179321223_1_alg».proof.Proof.KernelValue
import Idealize.ShloMosaic.Lib.Pipeline.Value
import Idealize.ShloMosaic.Lib.ValueLayout
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The scores over the padded input, as one function of the output array's index. -/
def G8 (c : Dev nD) : S64x8192.Idx → EReal := fun i =>
  Cert.Spec.score (V (F := Ideal) m c main_v0) (V (F := Ideal) m c main_arg1) (V (F := Ideal) m c main_arg2)
    (V (F := Ideal) m c main_arg3) (V (F := Ideal) m c main_arg4) (V (F := Ideal) m c main_arg5) (V (F := Ideal) m c main_arg6)
    (i 0) (i 1).val

/-- The printed index maps, decided once over the 64 grid points: point t is tile (t / 16, t % 16); the output tile and
    the 512-row input tile sit at that block, the 8 rows after it at block (t % 16 + 1) · 64 of 8-row blocks, and
    every weight or bias array is its one block. -/
theorem grid_idx : ∀ t : Fin cfg0.N,
    win0_8.index t (0 : Fin 2) = t.val / 16 ∧ win0_8.index t (1 : Fin 2) = t.val % 16
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = (t.val % 16 + 1) * 64 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- The grid has 64 points. -/
theorem t_lt (t : Fin cfg0.N) : t.val < 64 := Nat.lt_of_lt_of_eq t.isLt (show cfg0.N = 64 from N_0)

/-! ## The weight and bias blocks are the whole arrays -/

theorem iblk2_eq (c : Dev nD) (t : Fin cfg0.N) : (iblk (F := Ideal) m c 2 t : S51x128.Idx → EReal) = V (F := Ideal) m c main_arg1 := by
  obtain ⟨-, -, -, -, -, -, -, -, e0, e1, -⟩ := grid_idx t
  funext y
  show V (F := Ideal) m c main_arg1 (((cfg0.win 2).blk t).view.emb y) = V (F := Ideal) m c main_arg1 y
  congr 1
  funext a
  apply Fin.ext
  match a with
  | ⟨0, _⟩ => show win0_2.index t (0 : Fin 2) * 51 + 1 * (y 0).val = (y 0).val; rw [e0]; omega
  | ⟨1, _⟩ => show win0_2.index t (1 : Fin 2) * 128 + 1 * (y 1).val = (y 1).val; rw [e1]; omega

theorem iblk3_eq (c : Dev nD) (t : Fin cfg0.N) : (iblk (F := Ideal) m c 3 t : S128.Idx → EReal) = V (F := Ideal) m c main_arg2 := by
  obtain ⟨-, -, -, -, -, -, -, -, -, -, e0, -⟩ := grid_idx t
  funext y
  show V (F := Ideal) m c main_arg2 (((cfg0.win 3).blk t).view.emb y) = V (F := Ideal) m c main_arg2 y
  congr 1
  funext a
  apply Fin.ext
  match a with
  | ⟨0, _⟩ => show win0_3.index t (0 : Fin 1) * 128 + 1 * (y 0).val = (y 0).val; rw [e0]; omega

theorem iblk4_eq (c : Dev nD) (t : Fin cfg0.N) : (iblk (F := Ideal) m c 4 t : S128x64.Idx → EReal) = V (F := Ideal) m c main_arg3 := by
  obtain ⟨-, -, -, -, -, -, -, -, -, -, -, e0, e1, -⟩ := grid_idx t
  funext y
  show V (F := Ideal) m c main_arg3 (((cfg0.win 4).blk t).view.emb y) = V (F := Ideal) m c main_arg3 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 64 + 1 * (y 1).val = (y 1).val; rw [e1]; omega

theorem iblk5_eq (c : Dev nD) (t : Fin cfg0.N) : (iblk (F := Ideal) m c 5 t : S64.Idx → EReal) = V (F := Ideal) m c main_arg4 := by
  obtain ⟨-, -, -, -, -, -, -, -, -, -, -, -, -, e0, -⟩ := grid_idx t
  funext y
  show V (F := Ideal) m c main_arg4 (((cfg0.win 5).blk t).view.emb y) = V (F := Ideal) m c main_arg4 y
  congr 1
  funext a
  apply Fin.ext
  match a with
  | ⟨0, _⟩ => show win0_5.index t (0 : Fin 1) * 64 + 1 * (y 0).val = (y 0).val; rw [e0]; omega

theorem iblk6_eq (c : Dev nD) (t : Fin cfg0.N) : (iblk (F := Ideal) m c 6 t : S64x1.Idx → EReal) = V (F := Ideal) m c main_arg5 := by
  obtain ⟨-, -, -, -, -, -, -, -, -, -, -, -, -, -, e0, e1, -⟩ := grid_idx t
  funext y
  show V (F := Ideal) m c main_arg5 (((cfg0.win 6).blk t).view.emb y) = V (F := Ideal) m c main_arg5 y
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 1 + 1 * (y 1).val = (y 1).val; rw [e1]; omega

theorem iblk7_eq (c : Dev nD) (t : Fin cfg0.N) : (iblk (F := Ideal) m c 7 t : S1.Idx → EReal) = V (F := Ideal) m c main_arg6 := by
  obtain ⟨-, -, -, -, -, -, -, -, -, -, -, -, -, -, -, -, e0⟩ := grid_idx t
  funext y
  show V (F := Ideal) m c main_arg6 (((cfg0.win 7).blk t).view.emb y) = V (F := Ideal) m c main_arg6 y
  congr 1
  funext a
  apply Fin.ext
  match a with
  | ⟨0, _⟩ => show win0_7.index t (0 : Fin 1) * 1 + 1 * (y 0).val = (y 0).val; rw [e0]; omega

/-! ## The two blocks of the padded array, read at an index -/

/-- The staged 512-row tile at (p, r, e) is the padded array at batch row 16 · (t / 16) + p, row 512 · (t % 16) + r:
    no tile of the grid is cut, so the fetch fills every entry of the buffer with the array's. -/
theorem blk0_apply (c : Dev nD) (t : Fin cfg0.N) (p : Fin 16) (r : Fin 512) (e : Fin 17) (k : S64x8200x17.Idx)
    (hk0 : (k 0).val = 16 * (t.val / 16) + p.val) (hk1 : (k 1).val = 512 * (t.val % 16) + r.val) (hk2 : (k 2).val = e.val) :
    blk0 (F := Ideal) m c t (ix3 p r e) = V (F := Ideal) m c main_v0 k := by
  obtain ⟨-, -, e0, e1, e2, -⟩ := grid_idx t
  have hmv : win0_0.moved (grid0.coords t) (ix3 p r e) = true :=
    (win0_0.moved_iff _ _).mpr fun a => by
      show ((ix3 p r e : S16x512x17.Idx) a).val < ((cfg0.win 0).clip (cfg0.grid.coords t) a).extent (S16x512x17.size a)
      rw [noclip0 t a]
      exact ((ix3 p r e : S16x512x17.Idx) a).isLt
  unfold blk0 Pipeline.Window.fill
  rw [dif_pos hmv]
  show V (F := Ideal) m c main_v0 (((cfg0.win 0).blk t).view.emb _) = V (F := Ideal) m c main_v0 k
  congr 1
  funext a
  apply Fin.ext
  match a with
  | ⟨0, _⟩ => show win0_0.index t (0 : Fin 3) * 16 + 1 * p.val = (k 0).val; rw [e0, hk0]; omega
  | ⟨1, _⟩ => show win0_0.index t (1 : Fin 3) * 512 + 1 * r.val = (k 1).val; rw [e1, hk1]; omega
  | ⟨2, _⟩ => show win0_0.index t (2 : Fin 3) * 17 + 1 * e.val = (k 2).val; rw [e2, hk2]; omega

/-- The 8 rows after the tile at (p, r, e): the padded array at batch row 16 · (t / 16) + p, row 512 · (t % 16) + 512 + r
    (8-row block (t % 16 + 1) · 64 starts at row 512 · (t % 16 + 1)). -/
theorem iblk1_apply (c : Dev nD) (t : Fin cfg0.N) (p : Fin 16) (r : Fin 8) (e : Fin 17) (k : S64x8200x17.Idx)
    (hk0 : (k 0).val = 16 * (t.val / 16) + p.val) (hk1 : (k 1).val = 512 * (t.val % 16) + 512 + r.val) (hk2 : (k 2).val = e.val) :
    (iblk (F := Ideal) m c 1 t : S16x8x17.Idx → EReal) (ix3 p r e) = V (F := Ideal) m c main_v0 k := by
  obtain ⟨-, -, -, -, -, e0, e1, e2, -⟩ := grid_idx t
  show V (F := Ideal) m c main_v0 (((cfg0.win 1).blk t).view.emb (ix3 p r e)) = V (F := Ideal) m c main_v0 k
  congr 1
  funext a
  apply Fin.ext
  match a with
  | ⟨0, _⟩ => show win0_1.index t (0 : Fin 3) * 16 + 1 * p.val = (k 0).val; rw [e0, hk0]; omega
  | ⟨1, _⟩ => show win0_1.index t (1 : Fin 3) * 8 + 1 * r.val = (k 1).val; rw [e1, hk1]; omega
  | ⟨2, _⟩ => show win0_1.index t (2 : Fin 3) * 17 + 1 * e.val = (k 2).val; rw [e2, hk2]; omega

/-- Row r < 520 of the tile followed by its 8 rows is row 512 · (t % 16) + r of the padded array (8200 rows: even the
    last tile's 8 extra rows, 8192 … 8199, are inside it). -/
theorem rows_eq (c : Dev nD) (t : Fin cfg0.N) (p : Fin 16) (b : Fin 64) (hb : b.val = 16 * (t.val / 16) + p.val)
    (r : Nat) (hr : r < 520) :
    Cert.Spec.row2 (blk0 (F := Ideal) m c t) (iblk (F := Ideal) m c 1 t) p r
      = Cert.Spec.row (V (F := Ideal) m c main_v0) b (512 * (t.val % 16) + r) := by
  have ht := t_lt t
  funext e
  unfold Cert.Spec.row2
  by_cases h : r < 512
  · rw [if_pos h]
    unfold Cert.Spec.row
    rw [dif_pos h, dif_pos (show 512 * (t.val % 16) + r < 8200 by omega)]
    exact blk0_apply m c t p ⟨r, h⟩ e _ hb rfl rfl
  · rw [if_neg h]
    unfold Cert.Spec.row
    rw [dif_pos (show r - 512 < 8 by omega), dif_pos (show 512 * (t.val % 16) + r < 8200 by omega)]
    refine iblk1_apply m c t p ⟨r - 512, by omega⟩ e _ hb ?_ rfl
    show 512 * (t.val % 16) + r = 512 * (t.val % 16) + 512 + (r - 512)
    omega

/-! ## What a point writes back -/

/-- The body's stored value at (p, q), once the rows its tile and the 8 rows after it hold are rows s₀ … s₀ + 519 of
    batch row b of an array a: the score of a there at position s₀ + q. -/
theorem pay_point (x0 : Vec Ideal S16x512x17 .f32) (x1 : Vec Ideal S16x8x17 .f32) (w1 : Vec Ideal S51x128 .f32)
    (b1 : Vec Ideal S128 .f32) (w2 : Vec Ideal S128x64 .f32) (b2 : Vec Ideal S64 .f32) (w3 : Vec Ideal S64x1 .f32)
    (b3 : Vec Ideal S1 .f32) (a : S64x8200x17.Idx → EReal) (b : Fin 64) (s0 : Nat) (p : Fin 16) (q : Fin 512)
    (hrows : ∀ r, r < 520 → Cert.Spec.row2 x0 x1 p r = Cert.Spec.row a b (s0 + r)) :
    k0_pay1 (F := Ideal) (k0_pay2 (F := Ideal) x0 x1 w1 b1 w2 b2 w3 b3) (ix2 p q)
      = Cert.Spec.score a w1 b1 w2 b2 w3 b3 b (s0 + q.val) := by
  have hq := q.isLt
  rw [Cert.KernelValue.pay_apply]
  unfold Cert.Spec.score
  rw [hrows q.val (by omega), hrows (q.val + 1) (by omega), hrows (q.val + 2) (by omega)]
  rfl

/-- Position (p, q) of point t's tile is position 512 · (t % 16) + q of batch row 16 · (t / 16) + p. -/
theorem tile_eq (c : Dev nD) (t : Fin cfg0.N) (p : Fin 16) (q : Fin 512) (b : Fin 64) (s : Fin 8192)
    (hb : b.val = 16 * (t.val / 16) + p.val) (hs : s.val = 512 * (t.val % 16) + q.val) :
    k0_pay1 (F := Ideal) (k0_pay2 (F := Ideal) (blk0 (F := Ideal) m c t) (iblk (F := Ideal) m c 1 t)
        (V (F := Ideal) m c main_arg1) (V (F := Ideal) m c main_arg2) (V (F := Ideal) m c main_arg3)
        (V (F := Ideal) m c main_arg4) (V (F := Ideal) m c main_arg5) (V (F := Ideal) m c main_arg6)) (ix2 p q)
      = G8 m c (ix2 b s) := by
  rw [pay_point _ _ _ _ _ _ _ _ (V (F := Ideal) m c main_v0) b (512 * (t.val % 16)) p q (rows_eq m c t p b hb)]
  show _ = Cert.Spec.score _ _ _ _ _ _ _ b s.val
  rw [hs]

/-- The zero offsets of a whole-buffer rectangle, however the zeros are spelt. -/
theorem zero_off2 : (![0, 0] : Fin 2 → Nat) = fun _ => 0 := funext fun a => by fin_cases a <;> rfl
theorem zero_off3 : (![0, 0, 0] : Fin 3 → Nat) = fun _ => 0 := funext fun a => by fin_cases a <;> rfl
theorem zero_off1 : (![0] : Fin 1 → Nat) = fun _ => 0 := funext fun a => by fin_cases a <;> rfl

/-- What point t writes back is its block of the scores. -/
theorem flushed8_eq (c : Dev nD) (t : Fin cfg0.N) :
    (dats (F := Ideal) m 0 c).flushed 8 t = ((cfg0.win 8).blk t).view.read (Elt Ideal) (G8 m c) := by
  show (cfg0.win 8).cut (grid0.coords t) ((dats (F := Ideal) m 0 c).after 8 t) = _
  rw [after8]
  unfold out8
  rw [View.canon_unit_zero zero_off2]
  simp only [View.ld_unit_zero (S := S16x512x17) zero_off3, View.ld_unit_zero (S := S16x8x17) zero_off3,
    View.ld_unit_zero (S := S51x128) zero_off2, View.ld_unit_zero (S := S128) zero_off1, View.ld_unit_zero (S := S128x64) zero_off2,
    View.ld_unit_zero (S := S64) zero_off1, View.ld_unit_zero (S := S64x1) zero_off2, View.ld_unit_zero (S := S1) zero_off1]
  rw [iblk2_eq, iblk3_eq, iblk4_eq, iblk5_eq, iblk6_eq, iblk7_eq]
  obtain ⟨e0, e1, -⟩ := grid_idx t
  have ht := t_lt t
  funext y
  have hy0 : (y 0).val < 16 := (y 0).isLt
  have hy1 : (y 1).val < 512 := (y 1).isLt
  have hemb : ((cfg0.win 8).blk t).view.emb y
      = ix2 (⟨16 * (t.val / 16) + (y 0).val, by omega⟩ : Fin 64) (⟨512 * (t.val % 16) + (y 1).val, by omega⟩ : Fin 8192) := by
    funext a
    apply Fin.ext
    match a with
    | ⟨0, _⟩ => show win0_8.index t (0 : Fin 2) * 16 + 1 * (y 0).val = 16 * (t.val / 16) + (y 0).val; rw [e0]; omega
    | ⟨1, _⟩ => show win0_8.index t (1 : Fin 2) * 512 + 1 * (y 1).val = 512 * (t.val % 16) + (y 1).val; rw [e1]; omega
  show _ = G8 m c (((cfg0.win 8).blk t).view.emb y)
  rw [hemb]
  exact tile_eq m c t ⟨(y 0).val, hy0⟩ ⟨(y 1).val, hy1⟩ _ _ rfl rfl

/-! ## The 64 tiles cover the output array -/

/-- An index of the output array is in point t's block iff each coordinate is in the block's range on its axis. -/
theorem mem_blk8 (t : Fin cfg0.N) (i : S64x8192.Idx) :
    i ∈ ((cfg0.win 8).blk t).view.set ↔ ∀ a : Fin 2, win0_8.index t a * S16x512.size a ≤ (i a).val
      ∧ (i a).val < win0_8.index t a * S16x512.size a + S16x512.size a := by
  show i ∈ ((View.whole main_v1).slice (win0_8.rect t)).set ↔ _
  rw [View.set_slice_whole, Rect.mem_set_unit]
  exact Iff.rfl

/-- Position s of batch row b lies in the tile of point 16 · (b / 16) + s / 512, and every point writes its tile back. -/
theorem tiles_cover (i : S64x8192.Idx) :
    ∃ t : Fin cfg0.N, (cfg0.win 8).flush t = true ∧ i ∈ ((cfg0.win 8).blk t).view.set := by
  have hi0 : (i 0).val < 64 := (i 0).isLt
  have hi1 : (i 1).val < 8192 := (i 1).isLt
  have hN : cfg0.N = 64 := N_0
  let t : Fin cfg0.N := ⟨16 * ((i 0).val / 16) + (i 1).val / 512, by rw [hN]; omega⟩
  have htv : t.val = 16 * ((i 0).val / 16) + (i 1).val / 512 := rfl
  obtain ⟨e0, e1, -⟩ := grid_idx t
  refine ⟨t, flush0_8 t, ?_⟩
  rw [mem_blk8]
  intro a
  match a with
  | ⟨0, _⟩ =>
    show win0_8.index t (0 : Fin 2) * 16 ≤ (i 0).val ∧ (i 0).val < win0_8.index t (0 : Fin 2) * 16 + 16
    rw [e0, htv]; omega
  | ⟨1, _⟩ =>
    show win0_8.index t (1 : Fin 2) * 512 ≤ (i 1).val ∧ (i 1).val < win0_8.index t (1 : Fin 2) * 512 + 512
    rw [e1, htv]; omega

/-- The output array after the region. -/
theorem final8 (c : Dev nD) : (dats (F := Ideal) m 0 c).arrAt 8 cfg0.N = G8 m c := by
  exact (dats (F := Ideal) m 0 c).arrAt_eq_of_cover 8 (G8 m c) (fun t _ => flushed8_eq m c t) tiles_cover

/-! ## The padded input below row 8192 -/

/-- The padded array as the region finds it: the input with 8 rows of the converted zero constant after each batch
    entry's 8192 rows. -/
theorem v0_eq (c : Dev nD) : (V (F := Ideal) m c main_v0 : S64x8200x17.Idx → EReal)
    = pad S64x8200x17 ![0, 0, 0] ![0, 8, 0] ![0, 0, 0] (m ((c : Thread nD τ).loc main_arg0))
        (sitofp (F := Ideal) .f32 (constantI S_ 32 0#32)) pads_S64x8192x17_S64x8200x17_000_080_000 h_S_ := by
  dsimp only [V, V0]
  simp only [hostOps0, hostOps0_1, List.flatten_cons, List.flatten_nil, List.append_nil, List.cons_append, List.nil_append]
  after_results
  rfl

/-- A row of the padded input below row 8192 is the input's row. -/
theorem row_pad (c : Dev nD) (b : Fin 64) (r : Nat) (hr : r < 8192) :
    Cert.Spec.row (V (F := Ideal) m c main_v0) b r = Cert.Spec.row (m ((c : Thread nD τ).loc main_arg0)) b r := by
  funext e
  unfold Cert.Spec.row
  rw [dif_pos (show r < 8200 by omega), dif_pos hr]
  refine (congrFun (v0_eq m c) _).trans ?_
  refine pad_apply_of_inside _ _ _ _ _ _ _ _ (ix3 b ⟨r, hr⟩ e) (fun a => ?_)
  match a with
  | ⟨0, _⟩ => show b.val = 0 + b.val * (0 + 1); omega
  | ⟨1, _⟩ => show r = 0 + r * (0 + 1); omega
  | ⟨2, _⟩ => show e.val = 0 + e.val * (0 + 1); omega

end Cert.KernelIdeal.Hand

end
-- ==== Proof.RefValue.lean ====
/-
  The reference's result, index by index, is the score of the window of rows s, s + 1, s + 2 of the input.
-/
import proofs.«171845_j27668179321223_1_alg».proof.Proof.Gen.ReferenceIdeal.Read
import proofs.«171845_j27668179321223_1_alg».proof.Proof.Spec

noncomputable section

namespace Cert.RefValue

open Idealize.ShloMosaic Idealize.ShloMosaic.ValueIdx Cert.ReferenceIdeal Cert.ReferenceIdeal.Read

/-- The word 0x3F800000 is the number one: sign bit clear, biased exponent 127, fraction zero. -/
theorem one_word : Ideal.ofBits .f32 0x3F800000#32 = 1 := by
  show Ideal.ieee 8 23 (0x3F800000#32 : BitVec 32) = 1
  unfold Ideal.ieee
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  simp only [hs, he, hf]
  norm_num

/-- The slice starting at row 0, at (b, s, e), is row s of the input. -/
theorem slice0_apply (x0 : (⟨S64x8192x17, .f32⟩ : BufTy).Contents (Elt Ideal)) (b : Fin 64) (s : Fin 8190) (e : Fin 17) :
    val_main_v0 (F := Ideal) x0 (ix3 b s e) = Cert.Spec.row x0 b s.val e := by
  have hs : s.val < 8192 := by have := s.isLt; omega
  rw [val_main_v0_apply]
  unfold Cert.Spec.row
  rw [dif_pos hs]
  refine congrArg x0 (funext fun a => Fin.ext ?_)
  match a with
  | ⟨0, _⟩ => rfl
  | ⟨1, _⟩ => rfl
  | ⟨2, _⟩ => rfl

/-- The slice starting at row 1, at (b, s, e), is row s + 1 of the input. -/
theorem slice1_apply (x0 : (⟨S64x8192x17, .f32⟩ : BufTy).Contents (Elt Ideal)) (b : Fin 64) (s : Fin 8190) (e : Fin 17) :
    val_main_v1 (F := Ideal) x0 (ix3 b s e) = Cert.Spec.row x0 b (s.val + 1) e := by
  have hs : s.val + 1 < 8192 := by have := s.isLt; omega
  rw [val_main_v1_apply]
  unfold Cert.Spec.row
  rw [dif_pos hs]
  refine congrArg x0 (funext fun a => Fin.ext ?_)
  match a with
  | ⟨0, _⟩ => rfl
  | ⟨1, _⟩ => exact Nat.add_comm 1 s.val
  | ⟨2, _⟩ => rfl

/-- The slice starting at row 2, at (b, s, e), is row s + 2 of the input. -/
theorem slice2_apply (x0 : (⟨S64x8192x17, .f32⟩ : BufTy).Contents (Elt Ideal)) (b : Fin 64) (s : Fin 8190) (e : Fin 17) :
    val_main_v2 (F := Ideal) x0 (ix3 b s e) = Cert.Spec.row x0 b (s.val + 2) e := by
  have hs : s.val + 2 < 8192 := by have := s.isLt; omega
  rw [val_main_v2_apply]
  unfold Cert.Spec.row
  rw [dif_pos hs]
  refine congrArg x0 (funext fun a => Fin.ext ?_)
  match a with
  | ⟨0, _⟩ => rfl
  | ⟨1, _⟩ => exact Nat.add_comm 2 s.val
  | ⟨2, _⟩ => rfl

/-- The three slices joined along the columns, at (b, s, f): columns 0–16 come from the first slice, 17–33 from the
    second, 34–50 from the third, so the joined row is the window of rows s, s + 1, s + 2. -/
theorem window_apply (x0 : (⟨S64x8192x17, .f32⟩ : BufTy).Contents (Elt Ideal)) (b : Fin 64) (s : Fin 8190) (f : Fin 51) :
    val_main_v3 (F := Ideal) x0 (ix3 b s f)
      = Cert.Spec.win3 (Cert.Spec.row x0 b s.val) (Cert.Spec.row x0 b (s.val + 1)) (Cert.Spec.row x0 b (s.val + 2)) f := by
  unfold val_main_v3 Cert.Spec.win3
  by_cases h0 : f.val < 17
  · rw [dif_pos h0]
    refine (concatenate_apply_piece (t := S64x8190x51) (2 : Fin 3)
      [⟨S64x8190x17, val_main_v0 (F := Ideal) x0⟩, ⟨S64x8190x17, val_main_v1 (F := Ideal) x0⟩, ⟨S64x8190x17, val_main_v2 (F := Ideal) x0⟩]
      Gen.concatenates_S64x8190x17_S64x8190x17_S64x8190x17_S64x8190x51_d2 (ix3 b s f)
      0 (by simp) S64x8190x17 (val_main_v0 (F := Ideal) x0) rfl rfl 0 rfl (ix3 b s ⟨f.val, h0⟩) ?_ ?_).trans
      (slice0_apply x0 b s ⟨f.val, h0⟩)
    · intro a
      match a with
      | ⟨0, _⟩ => exact fun _ => rfl
      | ⟨1, _⟩ => exact fun _ => rfl
      | ⟨2, _⟩ => exact fun h => absurd rfl h
    · exact Nat.zero_add f.val
  · rw [dif_neg h0]
    by_cases h1 : f.val < 34
    · rw [dif_pos h1]
      refine (concatenate_apply_piece (t := S64x8190x51) (2 : Fin 3)
        [⟨S64x8190x17, val_main_v0 (F := Ideal) x0⟩, ⟨S64x8190x17, val_main_v1 (F := Ideal) x0⟩, ⟨S64x8190x17, val_main_v2 (F := Ideal) x0⟩]
        Gen.concatenates_S64x8190x17_S64x8190x17_S64x8190x17_S64x8190x51_d2 (ix3 b s f)
        1 (by simp) S64x8190x17 (val_main_v1 (F := Ideal) x0) rfl rfl 17 rfl (ix3 b s ⟨f.val - 17, by omega⟩) ?_ ?_).trans
        (slice1_apply x0 b s ⟨f.val - 17, by omega⟩)
      · intro a
        match a with
        | ⟨0, _⟩ => exact fun _ => rfl
        | ⟨1, _⟩ => exact fun _ => rfl
        | ⟨2, _⟩ => exact fun h => absurd rfl h
      · show 17 + (f.val - 17) = f.val
        omega
    · rw [dif_neg h1]
      have hf : f.val < 51 := f.isLt
      refine (concatenate_apply_piece (t := S64x8190x51) (2 : Fin 3)
        [⟨S64x8190x17, val_main_v0 (F := Ideal) x0⟩, ⟨S64x8190x17, val_main_v1 (F := Ideal) x0⟩, ⟨S64x8190x17, val_main_v2 (F := Ideal) x0⟩]
        Gen.concatenates_S64x8190x17_S64x8190x17_S64x8190x17_S64x8190x51_d2 (ix3 b s f)
        2 (by simp) S64x8190x17 (val_main_v2 (F := Ideal) x0) rfl rfl 34 rfl (ix3 b s ⟨f.val - 34, by omega⟩) ?_ ?_).trans
        (slice2_apply x0 b s ⟨f.val - 34, by omega⟩)
      · intro a
        match a with
        | ⟨0, _⟩ => exact fun _ => rfl
        | ⟨1, _⟩ => exact fun _ => rfl
        | ⟨2, _⟩ => exact fun h => absurd rfl h
      · show 34 + (f.val - 34) = f.val
        omega

/-- The first contraction reads the window at column k … -/
theorem lidx4_eq (b : Fin 64) (s : Fin 8190) (j : Fin 128) (k : Fin 51) : lidx_main_v4 (ix3 b s j) k = ix3 b s k :=
  funext fun a => by match a with | ⟨0, _⟩ => rfl | ⟨1, _⟩ => rfl | ⟨2, _⟩ => rfl
/-- … against the first weight matrix at (k, j). -/
theorem ridx4_eq (b : Fin 64) (s : Fin 8190) (j : Fin 128) (k : Fin 51) : ridx_main_v4 (ix3 b s j) k = ix2 k j :=
  funext fun a => by match a with | ⟨0, _⟩ => rfl | ⟨1, _⟩ => rfl
/-- The first bias, broadcast over (b, s), is read at j. -/
theorem bias1_eq (b : Fin 64) (s : Fin 8190) (j : Fin 128) : idx_main_v5 (idx_main_v6 (ix3 b s j)) = ix1 j :=
  funext fun a => by match a with | ⟨0, _⟩ => rfl

/-- The first layer of the reference at (b, s, j): the window against column j of the first weights, plus the bias,
    cut off below at zero. -/
theorem layer1_apply (x0 : (⟨S64x8192x17, .f32⟩ : BufTy).Contents (Elt Ideal)) (x1 : (⟨S51x128, .f32⟩ : BufTy).Contents (Elt Ideal))
    (x2 : (⟨S128, .f32⟩ : BufTy).Contents (Elt Ideal)) (b : Fin 64) (s : Fin 8190) (j : Fin 128) :
    val_main_v8 (F := Ideal) x0 x1 x2 (ix3 b s j)
      = Cert.Spec.layer1 (Cert.Spec.win3 (Cert.Spec.row x0 b s.val) (Cert.Spec.row x0 b (s.val + 1)) (Cert.Spec.row x0 b (s.val + 2))) x1 x2 j := by
  rw [val_main_v8_apply, val_main_v7_apply, val_main_v4_apply, val_main_v6_apply, val_main_v5_apply, val_main_call0_v0_apply,
    val_main_call0_cst_apply]
  unfold Cert.Spec.layer1
  simp only [lidx4_eq, ridx4_eq, bias1_eq, window_apply, Ideal.addf_def, Ideal.maximumf_def, Ideal.ofBits_def]

/-- The second contraction reads the first layer at unit j … -/
theorem lidx9_eq (b : Fin 64) (s : Fin 8190) (k : Fin 64) (j : Fin 128) : lidx_main_v9 (ix3 b s k) j = ix3 b s j :=
  funext fun a => by match a with | ⟨0, _⟩ => rfl | ⟨1, _⟩ => rfl | ⟨2, _⟩ => rfl
/-- … against the second weight matrix at (j, k). -/
theorem ridx9_eq (b : Fin 64) (s : Fin 8190) (k : Fin 64) (j : Fin 128) : ridx_main_v9 (ix3 b s k) j = ix2 j k :=
  funext fun a => by match a with | ⟨0, _⟩ => rfl | ⟨1, _⟩ => rfl
/-- The second bias, broadcast over (b, s), is read at k. -/
theorem bias2_eq (b : Fin 64) (s : Fin 8190) (k : Fin 64) : idx_main_v10 (idx_main_v11 (ix3 b s k)) = ix1 k :=
  funext fun a => by match a with | ⟨0, _⟩ => rfl

/-- The second layer of the reference at (b, s, k). -/
theorem layer2_apply (x0 : (⟨S64x8192x17, .f32⟩ : BufTy).Contents (Elt Ideal)) (x1 : (⟨S51x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (b : Fin 64) (s : Fin 8190) (k : Fin 64) :
    val_main_v13 (F := Ideal) x0 x1 x2 x3 x4 (ix3 b s k)
      = Cert.Spec.layer2 (Cert.Spec.layer1 (Cert.Spec.win3 (Cert.Spec.row x0 b s.val) (Cert.Spec.row x0 b (s.val + 1))
          (Cert.Spec.row x0 b (s.val + 2))) x1 x2) x3 x4 k := by
  rw [val_main_v13_apply, val_main_v12_apply, val_main_v9_apply, val_main_v11_apply, val_main_v10_apply, val_main_call1_v0_apply,
    val_main_call1_cst_apply]
  unfold Cert.Spec.layer2
  simp only [lidx9_eq, ridx9_eq, bias2_eq, layer1_apply, Ideal.addf_def, Ideal.maximumf_def, Ideal.ofBits_def]

/-- The reshape [64, 8190, 1] → [64, 8190] reads position (b, s) at (b, s, 0): b · 8190 + s splits back into b and s. -/
theorem idx24_eq (b : Fin 64) (s : Fin 8190) : idx_main_v24 (ix2 b s) = ix3 b s (0 : Fin 1) :=
  funext fun a => Fin.ext (by
    have hb : b.val < 64 := b.isLt
    have hs : s.val < 8190 := s.isLt
    match a with
    | ⟨0, _⟩ => show (b.val * 8190 + s.val) / 8190 = b.val; omega
    | ⟨1, _⟩ => show (b.val * 8190 + s.val) / 1 % 8190 = s.val; omega
    | ⟨2, _⟩ => rfl)
/-- The third contraction reads the second layer at unit k … -/
theorem lidx14_eq (b : Fin 64) (s : Fin 8190) (k : Fin 64) : lidx_main_v14 (ix3 b s (0 : Fin 1)) k = ix3 b s k :=
  funext fun a => by match a with | ⟨0, _⟩ => rfl | ⟨1, _⟩ => rfl | ⟨2, _⟩ => rfl
/-- … against the third weight matrix at (k, 0). -/
theorem ridx14_eq (b : Fin 64) (s : Fin 8190) (k : Fin 64) : ridx_main_v14 (ix3 b s (0 : Fin 1)) k = ix2 k (0 : Fin 1) :=
  funext fun a => by match a with | ⟨0, _⟩ => rfl | ⟨1, _⟩ => rfl
/-- The third bias, broadcast over (b, s), is read at its one entry. -/
theorem bias3_eq (b : Fin 64) (s : Fin 8190) : idx_main_v15 (idx_main_v16 (ix3 b s (0 : Fin 1))) = ix1 (0 : Fin 1) :=
  funext fun a => by match a with | ⟨0, _⟩ => rfl

/-- The reference's last stage at (b, s). -/
theorem ref_apply (x0 : (⟨S64x8192x17, .f32⟩ : BufTy).Contents (Elt Ideal)) (x1 : (⟨S51x128, .f32⟩ : BufTy).Contents (Elt Ideal))
    (x2 : (⟨S128, .f32⟩ : BufTy).Contents (Elt Ideal)) (x3 : (⟨S128x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (b : Fin 64) (s : Fin 8190) :
    val_main_v24 (F := Ideal) x0 x1 x2 x3 x4 x5 x6 (ix2 b s) = Cert.Spec.score x0 x1 x2 x3 x4 x5 x6 b s.val := by
  rw [val_main_v24_apply, idx24_eq, val_main_v23_apply, val_main_v22_apply, val_main_cst_0_apply, val_main_v21_apply,
    val_main_v20_apply, val_main_cst_apply, val_main_v19_apply, val_main_v18_apply, val_main_v17_apply, val_main_v14_apply,
    val_main_v16_apply, val_main_v15_apply]
  unfold Cert.Spec.score Cert.Spec.mlp Ideal.logistic
  simp only [lidx14_eq, ridx14_eq, bias3_eq, layer2_apply, Ideal.addf_def, Ideal.hostDivf_def, Ideal.hostUnary_exp_def,
    Ideal.hostNegf_def, Ideal.negf_def, Ideal.ofBits_def, one_word]

end Cert.RefValue

end
-- ==== Proof.Bridge.lean ====
/-
  The two results are one function of the arguments.

  The kernel's output array holds, at (b, s), the score of rows s, s + 1, s + 2 of the padded input; the result keeps
  the positions s < 8190, whose three rows are all below row 8192, where the padded input is the input. The reference's
  result at (b, s) is the score of the same three rows of the input. So the two results agree entry by entry, as
  extended reals, with no condition on the inputs: the two sides are the same sums.
-/
import proofs.«171845_j27668179321223_1_alg».proof.Proof.KILaunch
import proofs.«171845_j27668179321223_1_alg».proof.Proof.KIValue
import proofs.«171845_j27668179321223_1_alg».proof.Proof.RefValue

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-- The staged program's result at (b, s): the score of rows s, s + 1, s + 2 of the input. -/
theorem kernel_result (c : Dev nD) (b : Fin 64) (s : Fin 8190) :
    extractStridedSlice S64x8190 ![0, 0] ((dats (F := Ideal) m 0 c).arrAt 8 cfg0.N) slices_S64x8192_S64x8190_0_0 (ix2 b s)
      = Cert.Spec.score (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) b s.val := by
  have hs : s.val < 8192 := by have := s.isLt; omega
  rw [extractStridedSlice_apply _ _ slices_S64x8192_S64x8190_0_0 (ix2 b s) (ix2 b (⟨s.val, hs⟩ : Fin 8192))
    (fun a => by match a with | ⟨0, _⟩ => exact (Nat.zero_add _).symm | ⟨1, _⟩ => exact (Nat.zero_add _).symm)]
  rw [final8]
  show Cert.Spec.score (V (F := Ideal) m c main_v0) (V (F := Ideal) m c main_arg1) (V (F := Ideal) m c main_arg2)
    (V (F := Ideal) m c main_arg3) (V (F := Ideal) m c main_arg4) (V (F := Ideal) m c main_arg5) (V (F := Ideal) m c main_arg6) b s.val = _
  rw [V_arg m c main_arg1 (by decide) (by decide) (by decide), V_arg m c main_arg2 (by decide) (by decide) (by decide),
    V_arg m c main_arg3 (by decide) (by decide) (by decide), V_arg m c main_arg4 (by decide) (by decide) (by decide),
    V_arg m c main_arg5 (by decide) (by decide) (by decide), V_arg m c main_arg6 (by decide) (by decide) (by decide)]
  exact Cert.Spec.score_congr _ _ _ _ _ _ _ _ b s.val fun d hd => row_pad m c b (s.val + d) (by have := s.isLt; omega)

/-- From memories that agree on the seven arguments, the reference's result is the staged program's. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    Cert.ReferenceIdeal.Read.val_main_v24 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
      = extractStridedSlice S64x8190 ![0, 0] ((dats (F := Ideal) m 0 c).arrAt 8 cfg0.N) slices_S64x8192_S64x8190_0_0 := by
  rw [h0, h1, h2, h3, h4, h5, h6]
  funext i
  obtain ⟨b, s, rfl⟩ : ∃ (b : Fin 64) (s : Fin 8190), i = ix2 b s := ⟨i 0, i 1, eq_ix2 i⟩
  rw [Cert.RefValue.ref_apply]
  exact (kernel_result m c b s).symm

end Cert.Bridge

end
-- ==== Proof.lean ====
/-
  The certificate of a position-scoring kernel against its reference.

  Both programs score every position s < 8190 of every batch row by a three-layer perceptron on the window of rows
  s, s + 1, s + 2 of the input (51 → 128 → 64 → 1, max(·, 0) after the first two layers, the logistic function after the
  last). The reference forms the windows over the whole array and applies three matrix products. The kernel pads the
  sequence axis with 8 rows, scores 16 × 512 tiles — each from a tile of 512 rows and the 8 rows after it, two blocks of
  the one padded array — and keeps the first 8190 positions. Read over the extended reals the two results are the same
  sums, entry by entry (`Cert.Bridge.result_eq`), whatever the inputs. The frames: the staged program, at the word level
  and idealized, runs to its end from any memory and leaves its arguments as launched (`run_full`, one text for both);
  the reference's run is its operations' composed term. The idealization rewrote no operation, so nothing is owed for it.
-/
import proofs.«171845_j27668179321223_1_alg».proof.Defs
import proofs.«171845_j27668179321223_1_alg».proof.Proof.Gen.Kernel
import proofs.«171845_j27668179321223_1_alg».proof.Proof.Gen.KernelIdeal
import proofs.«171845_j27668179321223_1_alg».proof.Proof.Gen.ReferenceIdeal
import proofs.«171845_j27668179321223_1_alg».proof.Proof.Gen.Pre_finite_inputs
import proofs.«171845_j27668179321223_1_alg».proof.Proof.Gen.ReferenceIdeal.Run
import proofs.«171845_j27668179321223_1_alg».proof.Proof.KLaunch
import proofs.«171845_j27668179321223_1_alg».proof.Proof.KILaunch
import proofs.«171845_j27668179321223_1_alg».proof.Proof.Bridge
import Idealize.ShloMosaic.Adequacy
import Idealize.ShloMosaic.Init

noncomputable section

namespace Cert.Proof

open Idealize.ShloMosaic Idealize.SL.Sem

/-- The staged program at the word level runs and leaves its arguments unchanged. -/
theorem frame_k : @Cert.frame_Kernel Cert.Kernel.Gen.facts Cert.Pre_finite_inputs.Gen.facts := fun m ρ _ =>
  (θ_run Cert.Kernel.defs _ _).mono (fun _ h c => (h c).2) (Cert.Kernel.Hand.run_full (F := Bits) m ρ)

/-- So does its idealization. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_full (F := Ideal) m ρ)

/-- And the reference: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- From memories that agree on the arguments both idealized programs run, and end with equal results. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_full (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq]
  exact Cert.Bridge.result_eq m m' c (hagree c).1 (hagree c).2.1 (hagree c).2.2.1 (hagree c).2.2.2.1 (hagree c).2.2.2.2.1
    (hagree c).2.2.2.2.2.1 (hagree c).2.2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
